-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x512 : Shape := ⟨3, ![256, 512, 512]⟩
abbrev S256x1024 : Shape := ⟨2, ![256, 1024]⟩
abbrev S_ : Shape := ⟨0, ![]⟩

class Facts : Prop where
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg2 : IVec S256x1024 32) (main_v15 : IVec S_ 1) : IVec S_ 1 :=
  let main_c_6 : IVec S_ 32 := constantI S_ 32 512#32
  let main_v16 : IVec S256x1024 32 := broadcastInDim S256x1024 ![] bcast_S_S256x1024 main_c_6
  let main_v17 : IVec S256x1024 1 := cmpi .slt main_arg2 main_v16
  let main_c_7 : IVec S_ 1 := constantI S_ 1 1#1
  let main_v18 : IVec S_ 1 := (fun x v => Host.reduce IntOp.andi x v reducesTo_S256x1024_S_d0_1 h_S_) main_v17 main_c_7
  let main_v19 : IVec S_ 1 := andi main_v15 main_v18
  main_v19

def fn {F : FTy → Type} [FloatOps F] (main_arg0 : FVec F S256x512x512 .f32) (main_arg1 : IVec S256x1024 32) (main_arg2 : IVec S256x1024 32) (main_arg3 : IVec S256x1024 32) (main_arg4 : IVec S256x1024 32) (main_arg5 : IVec S256x1024 1) : IVec S_ 1 :=
  let main_v0 : FVec F S256x512x512 .f32 := Host.absf main_arg0
  let main_cst : FVec F S_ .f32 := constant S_ .f32 0x7F800000#32
  let main_v1 : FVec F S256x512x512 .f32 := broadcastInDim S256x512x512 ![] bcast_S_S256x512x512 main_cst
  let main_v2 : IVec S256x512x512 1 := cmpf .olt main_v0 main_v1
  let main_c : IVec S_ 1 := constantI S_ 1 1#1
  let main_v3 : IVec S_ 1 := (fun x v => Host.reduce IntOp.andi x v reducesTo_S256x512x512_S_d0_1_2 h_S_) main_v2 main_c
  let main_c_0 : IVec S_ 32 := constantI S_ 32 0#32
  let main_v4 : IVec S256x1024 32 := broadcastInDim S256x1024 ![] bcast_S_S256x1024 main_c_0
  let main_v5 : IVec S256x1024 1 := cmpi .sge main_arg1 main_v4
  let main_c_1 : IVec S_ 1 := constantI S_ 1 1#1
  let main_v6 : IVec S_ 1 := (fun x v => Host.reduce IntOp.andi x v reducesTo_S256x1024_S_d0_1 h_S_) main_v5 main_c_1
  let main_v7 : IVec S_ 1 := andi main_v3 main_v6
  let main_c_2 : IVec S_ 32 := constantI S_ 32 512#32
  let main_v8 : IVec S256x1024 32 := broadcastInDim S256x1024 ![] bcast_S_S256x1024 main_c_2
  let main_v9 : IVec S256x1024 1 := cmpi .slt main_arg1 main_v8
  let main_c_3 : IVec S_ 1 := constantI S_ 1 1#1
  let main_v10 : IVec S_ 1 := (fun x v => Host.reduce IntOp.andi x v reducesTo_S256x1024_S_d0_1 h_S_) main_v9 main_c_3
  let main_v11 : IVec S_ 1 := andi main_v7 main_v10
  let main_c_4 : IVec S_ 32 := constantI S_ 32 0#32
  let main_v12 : IVec S256x1024 32 := broadcastInDim S256x1024 ![] bcast_S_S256x1024 main_c_4
  let main_v13 : IVec S256x1024 1 := cmpi .sge main_arg2 main_v12
  let main_c_5 : IVec S_ 1 := constantI S_ 1 1#1
  let main_v14 : IVec S_ 1 := (fun x v => Host.reduce IntOp.andi x v reducesTo_S256x1024_S_d0_1 h_S_) main_v13 main_c_5
  let main_v15 : IVec S_ 1 := andi main_v11 main_v14
  fn_part1 (F := F) main_arg2 main_v15
-- ==== Kernel.lean ====
abbrev S256x512x512 : Shape := ⟨3, ![256, 512, 512]⟩
abbrev S256x1024 : Shape := ⟨2, ![256, 1024]⟩
abbrev S_ : Shape := ⟨0, ![]⟩
abbrev S2x1x128 : Shape := ⟨3, ![2, 1, 128]⟩
abbrev S8x512x512 : Shape := ⟨3, ![8, 512, 512]⟩
abbrev S8x1024 : Shape := ⟨2, ![8, 1024]⟩
abbrev S1x1x128 : Shape := ⟨3, ![1, 1, 128]⟩
abbrev S1x1 : Shape := ⟨2, ![1, 1]⟩
abbrev S1024x512 : Shape := ⟨2, ![1024, 512]⟩
abbrev S1x512x512 : Shape := ⟨3, ![1, 512, 512]⟩
abbrev S512x512 : Shape := ⟨2, ![512, 512]⟩
abbrev S1x1024 : Shape := ⟨2, ![1, 1024]⟩
abbrev S1024 : Shape := ⟨1, ![1024]⟩
abbrev S1024x1 : Shape := ⟨2, ![1024, 1]⟩
abbrev S8x128 : Shape := ⟨2, ![8, 128]⟩
abbrev S8 : Shape := ⟨1, ![8]⟩
abbrev S8x1 : Shape := ⟨2, ![8, 1]⟩
abbrev S1 : Shape := ⟨1, ![1]⟩
abbrev S1x1x1 : Shape := ⟨3, ![1, 1, 1]⟩

abbrev nBuf : Space → Nat
  | .hbm => 41
  | .vmem => 16
  | .smem => 0
  | _ => 0

abbrev bufTy : (tb : Table) → Fin (tcTables nBuf tb) → BufTy
  | .hbm, ⟨0, _⟩ => ⟨S256x512x512, .f32⟩
  | .hbm, ⟨1, _⟩ => ⟨S256x1024, .i32⟩
  | .hbm, ⟨2, _⟩ => ⟨S256x1024, .i32⟩
  | .hbm, ⟨3, _⟩ => ⟨S256x1024, .i32⟩
  | .hbm, ⟨4, _⟩ => ⟨S256x1024, .i32⟩
  | .hbm, ⟨5, _⟩ => ⟨S256x1024, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S256x1024, .i32⟩
  | .hbm, ⟨10, _⟩ => ⟨S256x1024, .i32⟩
  | .hbm, ⟨11, _⟩ => ⟨S_, .i32⟩
  | .hbm, ⟨12, _⟩ => ⟨S256x1024, .i32⟩
  | .hbm, ⟨13, _⟩ => ⟨S256x1024, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S256x1024, .i32⟩
  | .hbm, ⟨18, _⟩ => ⟨S256x1024, .i32⟩
  | .hbm, ⟨19, _⟩ => ⟨S_, .i32⟩
  | .hbm, ⟨20, _⟩ => ⟨S256x1024, .i32⟩
  | .hbm, ⟨21, _⟩ => ⟨S256x1024, .i32⟩
  | .hbm, ⟨22, _⟩ => ⟨S256x1024, .i32⟩
  | .hbm, ⟨23, _⟩ => ⟨S2x1x128, .f32⟩
  | .hbm, ⟨24, _⟩ => ⟨S1x1x1, .f32⟩
  | .hbm, ⟨25, _⟩ => ⟨S_, .f32⟩
  | .hbm, ⟨26, _⟩ => ⟨S1x1x1, .f32⟩
  | .hbm, ⟨27, _⟩ => ⟨S_, .f32⟩
  | .hbm, ⟨28, _⟩ => ⟨S_, .f32⟩
  | .hbm, ⟨29, _⟩ => ⟨S1x1x1, .f32⟩
  | .hbm, ⟨30, _⟩ => ⟨S_, .f32⟩
  | .hbm, ⟨31, _⟩ => ⟨S1x1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S8x512x512, .f32⟩
  | .local _ .vmem, ⟨1, _⟩ => ⟨S8x512x512, .f32⟩
  | .local _ .vmem, ⟨2, _⟩ => ⟨S8x1024, .i32⟩
  | .local _ .vmem, ⟨3, _⟩ => ⟨S8x1024, .i32⟩
  | .local _ .vmem, ⟨4, _⟩ => ⟨S8x1024, .i32⟩
  | .local _ .vmem, ⟨5, _⟩ => ⟨S8x1024, .i32⟩
  | .local _ .vmem, ⟨6, _⟩ => ⟨S8x1024, .i32⟩
  | .local _ .vmem, ⟨7, _⟩ => ⟨S8x1024, .i32⟩
  | .local _ .vmem, ⟨8, _⟩ => ⟨S8x1024, .i32⟩
  | .local _ .vmem, ⟨9, _⟩ => ⟨S8x1024, .i32⟩
  | .local _ .vmem, ⟨10, _⟩ => ⟨S8x1024, .i32⟩
  | .local _ .vmem, ⟨11, _⟩ => ⟨S8x1024, .i32⟩
  | .local _ .vmem, ⟨12, _⟩ => ⟨S1x1x128, .f32⟩
  | .local _ .vmem, ⟨13, _⟩ => ⟨S1x1x128, .f32⟩
  | .local _ .vmem, ⟨14, _⟩ => ⟨S1x1, .f32⟩
  | .local _ .vmem, ⟨15, _⟩ => ⟨S1x1, .f32⟩
  | _, _ => ⟨S256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
def k0_off1 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v20 : Index := Scalar.indexCast arg11
  let c0_11 : Index := 0#32
  let c0_12 : Index := 0#32
  ![v20.toNat, 0, 0]
def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let v23 : Index := Scalar.indexCast arg11
  let c0_13 : Index := 0#32
  ![v23.toNat, 0]
def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_10 : BitVec 32 := 0#32
  let v19 : BitVec 1 := Scalar.cmpi .ne v18 c0_i32_10
  v19

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S256x1024 : S_.BroadcastsInDim S256x1024 (![] : Fin 0 → Fin S256x1024.rank)
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1024x512_d1_w32 : S1024x512.Iotas .tc 32 [1]
  h_S1x512x512 : 0 < S1x512x512.numel
  shapeCasts_S1x512x512_S512x512 : S1x512x512.ShapeCasts S512x512
  h_S1x1024 : 0 < S1x1024.numel
  shapeCasts_S1x1024_S1024 : S1x1024.ShapeCasts S1024
  shapeCasts_S1024_S1024x1 : S1024.ShapeCasts S1024x1
  broadcasts_S1024x1_S1024x512 : S1024x1.Broadcasts S1024x512
  bitsLt_bf16_f32 : FTy.bits .bf16 < FTy.bits .f32
  reduces_S1024x512_S1024 : S1024x512.Reduces [1] S1024
  shapeCasts_S1024x1_S8x128 : S1024x1.ShapeCasts S8x128
  shapeCasts_S1024_S8x128 : S1024.ShapeCasts S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  iota_S1x1x128_d2_w32 : S1x1x128.Iotas .tc 32 [2]
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  slices_S2x1x128_S1x1x1_0_0_1 : S2x1x128.Slices ![0, 0, 1] S1x1x1
  slices_S2x1x128_S1x1x1_1_0_1 : S2x1x128.Slices ![1, 0, 1] S1x1x1
  dot_S1024x512_S512x512_S1024x512_1_0_0_1_n_n_wf : DotDims.WF S1024x512 S512x512 S1024x512 [1] [0] [0] [1] [] []
  hrank0 : 0 < grid0.rank
  k0_t1_ok : k0_t1_loop.OK
  k0_off1_inb : ∀ k0_t1 : Fin k0_t1_loop.trips, ∀ a, (k0_off1 k0_t1) a + S1x512x512.size a ≤ S8x512x512.size a
  k0_off2_inb : ∀ k0_t1 : Fin k0_t1_loop.trips, ∀ a, (k0_off2 k0_t1) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S256x512x512.size a
  hwx0_0 : ∀ i : grid0.Coords, EltTy.bits .f32 = 32 ∨ (Rect.block (s := S256x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S256x1024.size a
  hwx0_1 : ∀ i : grid0.Coords, EltTy.bits .i32 = 32 ∨ (Rect.block (s := S256x1024) S8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S256x1024.size a
  hwx0_2 : ∀ i : grid0.Coords, EltTy.bits .i32 = 32 ∨ (Rect.block (s := S256x1024) S8x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S256x1024.size a
  hwx0_3 : ∀ i : grid0.Coords, EltTy.bits .i32 = 32 ∨ (Rect.block (s := S256x1024) S8x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S256x1024.size a
  hwx0_4 : ∀ i : grid0.Coords, EltTy.bits .i32 = 32 ∨ (Rect.block (s := S256x1024) S8x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S256x1024.size a
  hwx0_5 : ∀ i : grid0.Coords, EltTy.bits .i32 = 32 ∨ (Rect.block (s := S256x1024) S8x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x512x512 : Shape := ⟨3, ![256, 512, 512]⟩
abbrev S256x1024 : Shape := ⟨2, ![256, 1024]⟩
abbrev S256 : Shape := ⟨1, ![256]⟩
abbrev S256x1 : Shape := ⟨2, ![256, 1]⟩
abbrev S_ : Shape := ⟨0, ![]⟩
abbrev S256x1024x1 : Shape := ⟨3, ![256, 1024, 1]⟩
abbrev S256x1024x3 : Shape := ⟨3, ![256, 1024, 3]⟩

abbrev nBuf : Space → Nat
  | .hbm => 86
  | .vmem => 0
  | .smem => 0
  | _ => 0

abbrev bufTy : (tb : Table) → Fin (tcTables nBuf tb) → BufTy
  | .hbm, ⟨0, _⟩ => ⟨S256x512x512, .f32⟩
  | .hbm, ⟨1, _⟩ => ⟨S256x1024, .i32⟩
  | .hbm, ⟨2, _⟩ => ⟨S256x1024, .i32⟩
  | .hbm, ⟨3, _⟩ => ⟨S256x1024, .i32⟩
  | .hbm, ⟨4, _⟩ => ⟨S256x1024, .i32⟩
  | .hbm, ⟨5, _⟩ => ⟨S256x1024, .i1⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S256x1, .i32⟩
  | .hbm, ⟨10, _⟩ => ⟨S256x1, .i1⟩
  | .hbm, ⟨11, _⟩ => ⟨S_, .i32⟩
  | .hbm, ⟨12, _⟩ => ⟨S256x1, .i32⟩
  | .hbm, ⟨13, _⟩ => ⟨S256x1, .i32⟩
  | .hbm, ⟨14, _⟩ => ⟨S256x1, .i32⟩
  | .hbm, ⟨15, _⟩ => ⟨S_, .i32⟩
  | .hbm, ⟨16, _⟩ => ⟨S256x1024, .i32⟩
  | .hbm, ⟨17, _⟩ => ⟨S256x1024, .i1⟩
  | .hbm, ⟨18, _⟩ => ⟨S_, .i32⟩
  | .hbm, ⟨19, _⟩ => ⟨S256x1024, .i32⟩
  | .hbm, ⟨20, _⟩ => ⟨S256x1024, .i32⟩
  | .hbm, ⟨21, _⟩ => ⟨S256x1024, .i32⟩
  | .hbm, ⟨22, _⟩ => ⟨S_, .i32⟩
  | .hbm, ⟨23, _⟩ => ⟨S256x1024, .i32⟩
  | .hbm, ⟨24, _⟩ => ⟨S256x1024, .i1⟩
  | .hbm, ⟨25, _⟩ => ⟨S_, .i32⟩
  | .hbm, ⟨26, _⟩ => ⟨S256x1024, .i32⟩
  | .hbm, ⟨27, _⟩ => ⟨S256x1024, .i32⟩
  | .hbm, ⟨28, _⟩ => ⟨S256x1024, .i32⟩
  | .hbm, ⟨29, _⟩ => ⟨S256x1024, .i32⟩
  | .hbm, ⟨30, _⟩ => ⟨S256x1024x1, .i32⟩
  | .hbm, ⟨31, _⟩ => ⟨S256x1024x1, .i32⟩
  | .hbm, ⟨32, _⟩ => ⟨S256x1024x1, .i32⟩
  | .hbm, ⟨33, _⟩ => ⟨S256x1024x3, .i32⟩
  | .hbm, ⟨34, _⟩ => ⟨S256x1024, .f32⟩
  | .hbm, ⟨35, _⟩ => ⟨S_, .i32⟩
  | .hbm, ⟨36, _⟩ => ⟨S256x1024, .i32⟩
  | .hbm, ⟨37, _⟩ => ⟨S256x1024, .i1⟩
  | .hbm, ⟨38, _⟩ => ⟨S_, .i32⟩
  | .hbm, ⟨39, _⟩ => ⟨S256x1024, .i32⟩
  | .hbm, ⟨40, _⟩ => ⟨S256x1024, .i1⟩
  | .hbm, ⟨41, _⟩ => ⟨S256x1024, .i1⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .i32⟩
  | .hbm, ⟨47, _⟩ => ⟨S256x1024, .i32⟩
  | .hbm, ⟨48, _⟩ => ⟨S256x1024, .i1⟩
  | .hbm, ⟨49, _⟩ => ⟨S_, .f32⟩
  | .hbm, ⟨50, _⟩ => ⟨S_, .f32⟩
  | .hbm, ⟨51, _⟩ => ⟨S256x1024, .f32⟩
  | .hbm, ⟨52, _⟩ => ⟨S256x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256x1024, .f32⟩
  | .hbm, ⟨57, _⟩ => ⟨S256x1024, .f32⟩
  | .hbm, ⟨58, _⟩ => ⟨S_, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S_, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S256x1024, .f32⟩
  | .hbm, ⟨72, _⟩ => ⟨S256x1024, .i1⟩
  | .hbm, ⟨73, _⟩ => ⟨S256x1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S256x1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v33 : Ref sig .tc := ⟨.hbm, 52, rfl⟩
abbrev main_cst_9 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_cst_15 : Ref sig .tc := ⟨.hbm, 81, rfl⟩
abbrev main_v51 : Ref sig .tc := ⟨.hbm, 82, rfl⟩
abbrev main_v52 : Ref sig .tc := ⟨.hbm, 83, rfl⟩
abbrev main_cst_16 : Ref sig .tc := ⟨.hbm, 84, rfl⟩
abbrev main_v53 : Ref sig .tc := ⟨.hbm, 85, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S256x1 : S_.BroadcastsInDim S256x1 (![] : Fin 0 → Fin S256x1.rank)
  bcast_S_S256x1024 : S_.BroadcastsInDim S256x1024 (![] : Fin 0 → Fin S256x1024.rank)
  bcast_S256x1_S256x1024_0_1 : S256x1.BroadcastsInDim S256x1024 (![0, 1] : Fin 2 → Fin S256x1024.rank)
  bcast_S256x1024_S256x1024x1_0_1 : S256x1024.BroadcastsInDim S256x1024x1 (![0, 1] : Fin 2 → Fin S256x1024x1.rank)
  concatenates_S256x1024x1_S256x1024x1_S256x1024x1_S256x1024x3_d2 : Shape.Concatenates [S256x1024x1, S256x1024x1, S256x1024x1] S256x1024x3 2
  reducesTo_S256x1024_S_d0_1 : S256x1024.ReducesTo [0, 1] S_
  h_S_ : 0 < S_.numel
  gather_S256x512x512_S256x1024x3_S256x1024_n_012_n_n_012_2_111_wf : GatherDims.WF S256x512x512 S256x1024x3 S256x1024 [] [0, 1, 2] [] [0, 1, 2] [] 2 ![1, 1, 1]

variable [Facts₀]

def gather_S256x512x512_S256x1024x3_S256x1024_n_012_n_n_012_2_111 : GatherDims S256x512x512 S256x1024x3 S256x1024 where
  offsetDims := []
  collapsedSliceDims := [0, 1, 2]
  operandBatchingDims := []
  startIndicesBatchingDims := []
  startIndexMap := [0, 1, 2]
  indexVectorDim := 2
  sliceSizes := ![1, 1, 1]
  wf := gather_S256x512x512_S256x1024x3_S256x1024_n_012_n_n_012_2_111_wf

class Facts : Prop extends Facts₀ where

variable [Facts]
-- ==== Proof.Trip.lean ====
/-
  One trip of the kernel's loop over the eight batch rows of a grid point, and the loop's carried pair in closed
  form.

  Trip `k` loads row `k` of each of the six staged blocks (the adjacency block `[8, 512, 512]` and the five
  `[8, 1024]` word blocks) and adds that row's numerator and denominator contributions to the carried pair.
  The carried pair before trip `k` is therefore the recursion `carry` below, from the zero pair.
-/
import proofs.«423741_j67611375173824_3_alg».proof.Proof.Gen.KernelIdeal.Frame
import Idealize.ShloMosaic.Lib.Pipeline.Value

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

variable {F : FTy → Type} [FloatOps F]

/-- Row `k` of an adjacency block, as the `[1, 512, 512]` vector the trip loads. -/
abbrev rowA (x : Vec F S8x512x512 .f32) (k : Fin k0_t1_loop.trips) : Vec F S1x512x512 .f32 :=
  View.ld x (Rect.unit (k0_off1 k) S1x512x512.size (k0_off1_inb k))

/-- Row `k` of a word block, as the `[1, 1024]` vector the trip loads. -/
abbrev rowW (x : Vec F S8x1024 .i32) (k : Fin k0_t1_loop.trips) : Vec F S1x1024 .i32 :=
  View.ld x (Rect.unit (k0_off2 k) S1x1024.size (k0_off2_inb k))

/-- What trip `k` makes of a carried pair: the numerator cell plus row `k`'s weighted entropies, the denominator cell
    plus row `k`'s weights. -/
def step (v3 : IVec S1024x512 32) (x0 : Vec F S8x512x512 .f32) (x1 x2 x3 x4 x5 : Vec F S8x1024 .i32)
    (k : Fin k0_t1_loop.trips) (acc : FVec F S1x1 .f32 × FVec F S1x1 .f32) : FVec F S1x1 .f32 × FVec F S1x1 .f32 :=
  (k0_pay5 acc.1 (k0_pay10 v3 (rowA x0 k) (rowW x1 k) (rowW x2 k)) (k0_pay11 (rowW x3 k)) (k0_pay12 (rowW x4 k))
      (k0_pay13 (rowW x5 k)) (k0_pay14 (rowW x3 k)) (k0_pay15 (rowW x3 k)),
    k0_pay6 acc.2 (k0_pay13 (rowW x5 k)))

/-- The trip the generated run found is `step`, when the six staging buffers hold the blocks `x0 … x5`. -/
theorem tripR_eq (𝒱 : Variants) (c : Dev nD) (bd : Option 𝒱.V) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole)
    (v3 : IVec S1024x512 32) (x0 : Vec F S8x512x512 .f32) (x1 : Vec F S8x1024 .i32) (x2 : Vec F S8x1024 .i32) (x3 : Vec F S8x1024 .i32) (x4 : Vec F S8x1024 .i32) (x5 : Vec F S8x1024 .i32) (k : Fin k0_t1_loop.trips) (acc : FVec F S1x1 .f32 × FVec F S1x1 .f32) :
    tripR_k0_t1 (F := F) 𝒱 c bd i arg2 harg2 arg3 harg3 arg4 harg4 arg5 harg5 arg6 harg6 arg7 harg7 arg8 harg8 arg9 harg9 arg10 harg10 v3 (harg2.unread x0) (harg3.unread x1) (harg4.unread x2) (harg5.unread x3) (harg6.unread x4) (harg7.unread x5) k acc = step v3 x0 x1 x2 x3 x4 x5 k acc := by
  unfold tripR_k0_t1 trip_k0_t1
  dsimp only
  sl_unfold_words
  simp only [View.readAt_eq_ld, harg2.read_unread, harg3.read_unread, harg4.read_unread, harg5.read_unread,
    harg6.read_unread, harg7.read_unread]
  rfl

/-- The loop runs eight trips. -/
theorem trips_eq : k0_t1_loop.trips = 8 := by decide +kernel

/-- The carried pair before trip `n`, from the zero pair: each trip below the trip count applies `step`. -/
def carry (v3 : IVec S1024x512 32) (x0 : Vec F S8x512x512 .f32) (x1 x2 x3 x4 x5 : Vec F S8x1024 .i32) :
    ℕ → FVec F S1x1 .f32 × FVec F S1x1 .f32
  | 0 => (k0_pay3 (F := F), k0_pay3 (F := F))
  | n + 1 => if h : n < k0_t1_loop.trips then step v3 x0 x1 x2 x3 x4 x5 ⟨n, h⟩ (carry v3 x0 x1 x2 x3 x4 x5 n)
      else carry v3 x0 x1 x2 x3 x4 x5 n

/-- The generated run's loop state is `carry`, when the six staging buffers hold the blocks `x0 … x5`. -/
theorem st_eq (𝒱 : Variants) (c : Dev nD) (bd : Option 𝒱.V) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole)
    (v3 : IVec S1024x512 32) (x0 : Vec F S8x512x512 .f32) (x1 : Vec F S8x1024 .i32) (x2 : Vec F S8x1024 .i32) (x3 : Vec F S8x1024 .i32) (x4 : Vec F S8x1024 .i32) (x5 : Vec F S8x1024 .i32) (n : ℕ) :
    st_k0_t1 (F := F) 𝒱 c bd i arg2 harg2 arg3 harg3 arg4 harg4 arg5 harg5 arg6 harg6 arg7 harg7 arg8 harg8 arg9 harg9 arg10 harg10 v3 (harg2.unread x0) (harg3.unread x1) (harg4.unread x2) (harg5.unread x3) (harg6.unread x4) (harg7.unread x5) (k0_pay3 (F := F), k0_pay3 (F := F)) n
      = carry v3 x0 x1 x2 x3 x4 x5 n := by
  induction n with
  | zero => rfl
  | succ n ih =>
    rw [st_k0_t1.eq_2]
    unfold st_k0_t1Step
    by_cases h : n < k0_t1_loop.trips
    · rw [dif_pos h, ih, tripR_eq]
      show _ = if h : n < k0_t1_loop.trips then _ else _
      rw [dif_pos h]
    · rw [dif_neg h, ih]
      show _ = if h : n < k0_t1_loop.trips then _ else _
      rw [dif_neg h]

/-- The lane iota the body compares the row and column indices with. -/
abbrev lanes : IVec S1024x512 32 := iota .tc S1024x512 32 [1] iota_S1024x512_d1_w32

/-- The pair the loop over a block's eight batch rows ends with, from the zero pair. -/
abbrev loopEnd (x0 : Vec F S8x512x512 .f32) (x1 x2 x3 x4 x5 : Vec F S8x1024 .i32) : FVec F S1x1 .f32 × FVec F S1x1 .f32 :=
  carry lanes x0 x1 x2 x3 x4 x5 k0_t1_loop.trips

end Cert.KernelIdeal.Trip

end
-- ==== Proof.Pieces.lean ====
/-
  What each control case of the kernel body leaves in the two scratch cells it carries between grid points, and in
  the output block.

  The first grid step of a core (case A) zeroes both cells, runs the loop over the block's eight batch rows and
  adds the loop's pair to the zeroed cells; every later step (cases B and C) adds the loop's pair to what the step
  before left; the last step (case C) also writes the output block: lane 0 the numerator cell, lane 1 the
  denominator cell, every other lane zero.
-/
import proofs.«423741_j67611375173824_3_alg».proof.Proof.Trip

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen Cert.KernelIdeal.Trip

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A_0 (c : Dev nD) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S8x512x512 .f32) (x1 : Vec F S8x1024 .i32) (x2 : Vec F S8x1024 .i32) (x3 : Vec F S8x1024 .i32) (x4 : Vec F S8x1024 .i32) (x5 : Vec F S8x1024 .i32) :
    sout0_A_0 c i arg2 harg2 arg3 harg3 arg4 harg4 arg5 harg5 arg6 harg6 arg7 harg7 arg8 harg8 arg9 harg9 arg10 harg10 hc0 hc1 x0 x1 x2 x3 x4 x5
      = k0_pay7 (loopEnd x0 x1 x2 x3 x4 x5).1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz2, View.readCov_unit_zero (S := S1x1) _ hz2, st_eq]

theorem sout_A_1 (c : Dev nD) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S8x512x512 .f32) (x1 : Vec F S8x1024 .i32) (x2 : Vec F S8x1024 .i32) (x3 : Vec F S8x1024 .i32) (x4 : Vec F S8x1024 .i32) (x5 : Vec F S8x1024 .i32) :
    sout0_A_1 c i arg2 harg2 arg3 harg3 arg4 harg4 arg5 harg5 arg6 harg6 arg7 harg7 arg8 harg8 arg9 harg9 arg10 harg10 hc0 hc1 x0 x1 x2 x3 x4 x5
      = k0_pay8 (loopEnd x0 x1 x2 x3 x4 x5).2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz2, View.readCov_unit_zero (S := S1x1) _ hz2, st_eq]

theorem sout_B_0 (c : Dev nD) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S8x512x512 .f32) (x1 : Vec F S8x1024 .i32) (x2 : Vec F S8x1024 .i32) (x3 : Vec F S8x1024 .i32) (x4 : Vec F S8x1024 .i32) (x5 : Vec F S8x1024 .i32) (xs0 : Vec F S1x1 .f32) (xs1 : Vec F S1x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1
      = k0_pay7 (loopEnd x0 x1 x2 x3 x4 x5).1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S1x1) hz2, st_eq]
  simp only [View.readAt_eq_ld, harg9.read_unread, View.ld_unit_zero (S := S1x1) hz2]

theorem sout_B_1 (c : Dev nD) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S8x512x512 .f32) (x1 : Vec F S8x1024 .i32) (x2 : Vec F S8x1024 .i32) (x3 : Vec F S8x1024 .i32) (x4 : Vec F S8x1024 .i32) (x5 : Vec F S8x1024 .i32) (xs0 : Vec F S1x1 .f32) (xs1 : Vec F S1x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1
      = k0_pay8 (loopEnd x0 x1 x2 x3 x4 x5).2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S1x1) hz2, st_eq]
  simp only [View.readAt_eq_ld, harg10.read_unread, View.ld_unit_zero (S := S1x1) hz2]

theorem sout_C_0 (c : Dev nD) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S8x512x512 .f32) (x1 : Vec F S8x1024 .i32) (x2 : Vec F S8x1024 .i32) (x3 : Vec F S8x1024 .i32) (x4 : Vec F S8x1024 .i32) (x5 : Vec F S8x1024 .i32) (xs0 : Vec F S1x1 .f32) (xs1 : Vec F S1x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1
      = k0_pay7 (loopEnd x0 x1 x2 x3 x4 x5).1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero (S := S1x1) hz2, st_eq]
  simp only [View.readAt_eq_ld, harg9.read_unread, View.ld_unit_zero (S := S1x1) hz2]

theorem sout_C_1 (c : Dev nD) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S8x512x512 .f32) (x1 : Vec F S8x1024 .i32) (x2 : Vec F S8x1024 .i32) (x3 : Vec F S8x1024 .i32) (x4 : Vec F S8x1024 .i32) (x5 : Vec F S8x1024 .i32) (xs0 : Vec F S1x1 .f32) (xs1 : Vec F S1x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1
      = k0_pay8 (loopEnd x0 x1 x2 x3 x4 x5).2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero (S := S1x1) hz2, st_eq]
  simp only [View.readAt_eq_ld, harg10.read_unread, View.ld_unit_zero (S := S1x1) hz2]

theorem out_C_6 (c : Dev nD) (i : grid0.Coords) (arg2 : Memref sig .tc .vmem S8x512x512 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x1024 .i32) (harg5 : arg5.IsWhole) (arg6 : Memref sig .tc .vmem S8x1024 .i32) (harg6 : arg6.IsWhole) (arg7 : Memref sig .tc .vmem S8x1024 .i32) (harg7 : arg7.IsWhole) (arg8 : Memref sig .tc .vmem S1x1x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S8x512x512 .f32) (x1 : Vec F S8x1024 .i32) (x2 : Vec F S8x1024 .i32) (x3 : Vec F S8x1024 .i32) (x4 : Vec F S8x1024 .i32) (x5 : Vec F S8x1024 .i32) (xs0 : Vec F S1x1 .f32) (xs1 : Vec F S1x1 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay9 (k0_pay7 (loopEnd x0 x1 x2 x3 x4 x5).1 xs0) (k0_pay8 (loopEnd x0 x1 x2 x3 x4 x5).2 xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero (S := S1x1x128) hz3, View.readCov_unit_zero (S := S1x1) _ hz2,
    View.readCov_unit_zero (S := S1x1) _ hz2, st_eq]
  simp only [View.readAt_eq_ld, harg9.read_unread, harg10.read_unread, View.ld_unit_zero (S := S1x1) hz2]

end Cert.KernelIdeal.Pieces

end
-- ==== Proof.Points.lean ====
/-
  What the two carried scratch cells and the output block hold after each grid point.

  A core's sixteen grid steps are the points `16·q … 16·q + 15`.  At the first of them both cells are the zero cell
  plus the point's loop pair; at each later one they are what the point before left plus the point's loop pair; at
  the last one the output block is written from the two cells.
-/
import proofs.«423741_j67611375173824_3_alg».proof.Proof.Pieces

set_option maxRecDepth 16384

noncomputable section

namespace Cert.KernelIdeal.Points

open Idealize.ShloMosaic Idealize.ShloMosaic.TcCoe Idealize.ShloMosaic.Tactic Idealize.SL.Sem
open Cert.KernelIdeal Cert.KernelIdeal.Gen Cert.KernelIdeal.Trip Cert.KernelIdeal.Pieces

variable {F : FTy → Type} [FloatOps F]
variable (m : (ℓ : Loc nD τ sig) → Buf (Elt F) ℓ)

/-- The pair the loop ends with at grid point `t`: over the six blocks the point stages. -/
abbrev loopAt (c : Dev nD) (t : Fin cfg0.N) : FVec F S1x1 .f32 × FVec F S1x1 .f32 :=
  loopEnd (iblk m c 0 t : Vec F S8x512x512 .f32) (iblk m c 1 t : Vec F S8x1024 .i32) (iblk m c 2 t : Vec F S8x1024 .i32)
    (iblk m c 3 t : Vec F S8x1024 .i32) (iblk m c 4 t : Vec F S8x1024 .i32) (iblk m c 5 t : Vec F S8x1024 .i32)

/-- At a core's first grid step the numerator cell is the zero cell plus the point's numerator. -/
theorem num_first (c : Dev nD) (t : Fin cfg0.N) (h0 : t.val % 16 = 0) :
    (outsAt0 m c t.val t.isLt).2.1 = k0_pay7 (loopAt m c t).1 (k0_pay1 (F := F)) := by
  have h1 : ¬t.val % 16 = 15 := by omega
  rw [outsAt0_A m c t h0 h1]
  dsimp only
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- Likewise the denominator cell. -/
theorem den_first (c : Dev nD) (t : Fin cfg0.N) (h0 : t.val % 16 = 0) :
    (outsAt0 m c t.val t.isLt).2.2 = k0_pay8 (loopAt m c t).2 (k0_pay2 (F := F)) := by
  have h1 : ¬t.val % 16 = 15 := by omega
  rw [outsAt0_A m c t h0 h1]
  dsimp only
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At every later grid step the numerator cell is what the point before left plus the point's numerator. -/
theorem num_next (c : Dev nD) (t : Fin cfg0.N) (h0 : ¬t.val % 16 = 0) :
    (outsAt0 m c t.val t.isLt).2.1 = k0_pay7 (loopAt m c t).1 (outsAt0 m c (t.val - 1) (Nat.lt_of_le_of_lt (Nat.sub_le _ _) t.isLt)).2.1 := by
  by_cases h1 : t.val % 16 = 15
  · rw [outsAt0_C m c t h0 h1]
    dsimp only
    exact sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- Likewise the denominator cell. -/
theorem den_next (c : Dev nD) (t : Fin cfg0.N) (h0 : ¬t.val % 16 = 0) :
    (outsAt0 m c t.val t.isLt).2.2 = k0_pay8 (loopAt m c t).2 (outsAt0 m c (t.val - 1) (Nat.lt_of_le_of_lt (Nat.sub_le _ _) t.isLt)).2.2 := by
  by_cases h1 : t.val % 16 = 15
  · rw [outsAt0_C m c t h0 h1]
    dsimp only
    exact sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- At a core's last grid step the output block is written from the two cells as that step leaves them. -/
theorem out_last (c : Dev nD) (t : Fin cfg0.N) (h1 : t.val % 16 = 15) :
    (outsAt0 m c t.val t.isLt).1
      = k0_pay9 (outsAt0 m c t.val t.isLt).2.1 (outsAt0 m c t.val t.isLt).2.2 := by
  have h0 : ¬t.val % 16 = 0 := by omega
  rw [num_next m c t h0, den_next m c t h0, outsAt0_C m c t h0 h1]
  dsimp only
  exact out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Points

end
-- ==== Proof.Spec.lean ====
/-
  The claim-validation loss as one function of the argument arrays, over the extended reals.

  For batch row `b` and claim `j` the probability `p b j` is the adjacency entry
  `adj[b, var_a[b, j], var_b[b, j]]`.  A relation code of 1 or 3 turns it into `1 - p`, a code of 4 or more
  replaces it by one half, and the result is clipped to `[1e-7, 1 - 1e-7]` (as two f32 words).  The
  per-claim term is the binary cross entropy `-(t · log q + (1 - t) · log1p (-q))` with `t` the claim's
  truth value read as a number; a claim whose mask bit is set is padding and weighs `0`, every other
  claim weighs `1`.  The loss is the weighted sum of the terms over the sum of the weights when that sum
  is positive, and `0` otherwise.

  Everything here is stated on scalars and on plain sums; the two programs are shown to compute
  `lossOf` of these sums in the modules that read them.
-/
import Idealize.ShloMosaic.PureOps.Ideal
import Idealize.ShloMosaic.Lib.ValueIdx

noncomputable section

namespace Cert.Loss

open Idealize.ShloMosaic Idealize.ShloMosaic.ValueIdx

abbrev S256x512x512 : Shape := ⟨3, ![256, 512, 512]⟩
abbrev S256x1024 : Shape := ⟨2, ![256, 1024]⟩
abbrev S_ : Shape := ⟨0, ![]⟩

/-- The f32 words the two programs share, as extended reals: `0`, `1`, `1/2`, and the two clip bounds. -/
abbrev zeroW : EReal := Ideal.ofBits .f32 0x00000000#32
abbrev oneW : EReal := Ideal.ofBits .f32 0x3F800000#32
abbrev halfW : EReal := Ideal.ofBits .f32 0x3F000000#32
abbrev loW : EReal := Ideal.ofBits .f32 0x33D6BF95#32
abbrev hiW : EReal := Ideal.ofBits .f32 0x3F7FFFFE#32

/-- The clipped probability of a claim from its gathered adjacency entry and its relation code. -/
def prob (p : EReal) (rel : BitVec 32) : EReal :=
  min hiW (max loW
    (Scalar.select (IntOp.cmpi .sge rel 4#32) halfW
      (Scalar.select (IntOp.ori (IntOp.cmpi .eq rel 1#32) (IntOp.cmpi .eq rel 3#32)) (oneW - p) p)))

/-- A claim's truth value as a number. -/
def truth (it : BitVec 32) : EReal := FloatOps.sitofp (F := Ideal) .f32 it

/-- The binary cross entropy of one claim, written as the kernel writes it: `0 - (t·log q + (1 - t)·log1p (0 - q))`. -/
def entropy (p : EReal) (rel it : BitVec 32) : EReal :=
  zeroW - (truth it * Ideal.log (prob p rel) + (oneW - truth it) * Ideal.log1p (zeroW - prob p rel))

/-- A claim's weight from its mask word (the mask bit widened to 32 bits): `1 - mask`, as a number. -/
def weight (mk : BitVec 32) : EReal := FloatOps.sitofp (F := Ideal) .f32 (IntOp.subi 1#32 mk)

/-- One claim's contribution to the numerator. -/
def term (p : EReal) (rel it mk : BitVec 32) : EReal := entropy p rel it * weight mk

/-- The quotient the two host programs end with, on rank-0 arrays: `num / max den 1` where `den > 0`, else `0`. -/
def lossOf (num den : FVec Ideal S_ .f32) : FVec Ideal S_ .f32 :=
  select (cmpf .ogt den (constant (F := Ideal) S_ .f32 0x00000000#32))
    (Host.divf (F := Ideal) num (maximumf den (constant (F := Ideal) S_ .f32 0x3F800000#32)))
    (constant (F := Ideal) S_ .f32 0x00000000#32)

/-- Batch row `8·(16·c + i) + k`: row `k` of the eight-row block that grid point `(c, i)` stages. -/
abbrev rowOf (c : Fin 2) (i : Fin 16) (k : Fin 8) : Fin 256 :=
  ⟨8 * (16 * c.val + i.val) + k.val, by have := c.isLt; have := i.isLt; have := k.isLt; omega⟩

/-- Claim `128·r + l`: lane `l` of sublane row `r` of a batch row's 1024 claims laid out as `[8, 128]`. -/
abbrev claimOf (r : Fin 8) (l : Fin 128) : Fin 1024 :=
  ⟨128 * r.val + l.val, by have := r.isLt; have := l.isLt; omega⟩

/-- An index word known to be below 512, as a position on an axis of extent 512. -/
abbrev pos (w : BitVec 32) (h : w.toNat < 512) : Fin 512 := ⟨w.toNat, h⟩

/-- The gathered probability of claim `(b, j)` for index arrays whose entries are all below 512. -/
def gathered (adj : S256x512x512.Idx → EReal) (va vb : S256x1024.Idx → BitVec 32)
    (ha : ∀ i, (va i).toNat < 512) (hb : ∀ i, (vb i).toNat < 512) (b : Fin 256) (j : Fin 1024) : EReal :=
  adj (ix3 b (pos (va (ix2 b j)) (ha _)) (pos (vb (ix2 b j)) (hb _)))

/-- The numerator: the weighted entropies of all claims. -/
def numer (adj : S256x512x512.Idx → EReal) (va vb rel it : S256x1024.Idx → BitVec 32) (mk : S256x1024.Idx → BitVec 1)
    (ha : ∀ i, (va i).toNat < 512) (hb : ∀ i, (vb i).toNat < 512) : EReal :=
  ∑ b : Fin 256, ∑ j : Fin 1024,
    term (gathered adj va vb ha hb b j) (rel (ix2 b j)) (it (ix2 b j)) ((mk (ix2 b j)).setWidth 32)

/-- The denominator: the number of claims that are not padding. -/
def denom (mk : S256x1024.Idx → BitVec 1) : EReal :=
  ∑ b : Fin 256, ∑ j : Fin 1024, weight ((mk (ix2 b j)).setWidth 32)

/-- The order in which the kernel adds a per-claim quantity `f b j` up: within a batch row the 1024 claims as 8 rows of
    128 lanes; the eight batch rows of a grid point one after the other from a zero carry; a core's sixteen grid
    points one after the other into a scratch cell that starts at zero; and at the end the two cores' cells. -/
def nestedSum (f : Fin 256 → Fin 1024 → EReal) : EReal :=
  (zeroW + ∑ i : Fin 16, (zeroW + ∑ k : Fin 8, ∑ r : Fin 8, ∑ l : Fin 128, f (rowOf 0 i k) (claimOf r l)))
    + (zeroW + ∑ i : Fin 16, (zeroW + ∑ k : Fin 8, ∑ r : Fin 8, ∑ l : Fin 128, f (rowOf 1 i k) (claimOf r l)))

end Cert.Loss

end
-- ==== Proof.Cells.lean ====
/-
  The two scratch cells as extended reals, in closed form over a core's sixteen grid steps.

  After point `16·q + i` the numerator cell holds the zero word plus the numerators of the points
  `16·q … 16·q + i` (each point's numerator is what its loop over eight batch rows ends with), and likewise the
  denominator cell.  After a core's last step the output block holds the numerator cell in lane 0 and the
  denominator cell in lane 1.
-/
import proofs.«423741_j67611375173824_3_alg».proof.Proof.Points
import proofs.«423741_j67611375173824_3_alg».proof.Proof.Spec
import Idealize.ShloMosaic.Lib.ValueIdx
import Idealize.ShloMosaic.Lib.Pipeline.Value

set_option maxRecDepth 16384

noncomputable section

namespace Cert.KernelIdeal.Cells

open Idealize.ShloMosaic Idealize.ShloMosaic.TcCoe Idealize.ShloMosaic.ValueIdx Idealize.SL.Sem
open Cert.KernelIdeal Cert.KernelIdeal.Gen Cert.KernelIdeal.Trip Cert.KernelIdeal.Points
open Cert.Loss (zeroW)

variable (m : (ℓ : Loc nD τ sig) → Buf (Elt Ideal) ℓ)

/-- The one index of a `[1, 1]` cell. -/
abbrev o : S1x1.Idx := ix2 (0 : Fin 1) (0 : Fin 1)

/-- Adding the loop's cell to a cell: at the one index, the cell's entry plus the loop's. -/
theorem pay7_apply (v6 : FVec Ideal S1x1 .f32) (v7 : Vec Ideal S1x1 .f32) : k0_pay7 (F := Ideal) v6 v7 o = v7 o + v6 o := by
  unfold k0_pay7
  rw [shapeCast_self]
  rfl

theorem pay8_apply (v6 : FVec Ideal S1x1 .f32) (v12 : Vec Ideal S1x1 .f32) : k0_pay8 (F := Ideal) v6 v12 o = v12 o + v6 o := by
  unfold k0_pay8
  rw [shapeCast_self]
  rfl

/-- The cell a core's first step stores first is the zero word. -/
theorem pay1_apply : k0_pay1 (F := Ideal) o = zeroW := by
  unfold k0_pay1
  rw [shapeCast_self]
  rfl

theorem pay2_apply : k0_pay2 (F := Ideal) o = zeroW := by
  unfold k0_pay2
  rw [shapeCast_self]
  rfl

/-- The numerator cell after point `n` (0 past the grid). -/
def numAt (c : Dev nD) (n : ℕ) : EReal := if h : n < cfg0.N then (outsAt0 m c n h).2.1 o else 0
/-- The denominator cell after point `n`. -/
def denAt (c : Dev nD) (n : ℕ) : EReal := if h : n < cfg0.N then (outsAt0 m c n h).2.2 o else 0
/-- Point `n`'s numerator: what its loop over the block's eight batch rows ends with. -/
def pNum (c : Dev nD) (n : ℕ) : EReal := if h : n < cfg0.N then (loopAt m c ⟨n, h⟩).1 o else 0
/-- Point `n`'s denominator. -/
def pDen (c : Dev nD) (n : ℕ) : EReal := if h : n < cfg0.N then (loopAt m c ⟨n, h⟩).2 o else 0

theorem numAt_first (c : Dev nD) (n : ℕ) (h : n < cfg0.N) (h0 : n % 16 = 0) : numAt m c n = zeroW + pNum m c n := by
  unfold numAt pNum
  rw [dif_pos h, dif_pos h, num_first m c ⟨n, h⟩ h0, pay7_apply, pay1_apply]

theorem denAt_first (c : Dev nD) (n : ℕ) (h : n < cfg0.N) (h0 : n % 16 = 0) : denAt m c n = zeroW + pDen m c n := by
  unfold denAt pDen
  rw [dif_pos h, dif_pos h, den_first m c ⟨n, h⟩ h0, pay8_apply, pay2_apply]

theorem numAt_next (c : Dev nD) (n : ℕ) (h : n + 1 < cfg0.N) (h0 : ¬(n + 1) % 16 = 0) :
    numAt m c (n + 1) = numAt m c n + pNum m c (n + 1) := by
  unfold numAt pNum
  rw [dif_pos h, dif_pos h, dif_pos (Nat.lt_of_succ_lt h), num_next m c ⟨n + 1, h⟩ h0, pay7_apply]
  rfl

theorem denAt_next (c : Dev nD) (n : ℕ) (h : n + 1 < cfg0.N) (h0 : ¬(n + 1) % 16 = 0) :
    denAt m c (n + 1) = denAt m c n + pDen m c (n + 1) := by
  unfold denAt pDen
  rw [dif_pos h, dif_pos h, dif_pos (Nat.lt_of_succ_lt h), den_next m c ⟨n + 1, h⟩ h0, pay8_apply]
  rfl

/-- A cell that starts a stretch of sixteen points at `z` plus the first point's amount and adds each later point's
    amount holds, after the point `i` of the stretch, `z` plus the amounts of the points up to `i`. -/
theorem stretch (S P : ℕ → EReal) (z : EReal) (b : ℕ) (h0 : S b = z + P b)
    (hs : ∀ i, i < 15 → S (b + (i + 1)) = S (b + i) + P (b + (i + 1))) :
    ∀ i, i < 16 → S (b + i) = z + ∑ j ∈ Finset.range (i + 1), P (b + j)
  | 0, _ => by rw [Finset.sum_range_one, Nat.add_zero]; exact h0
  | i + 1, hi => by
    rw [hs i (by omega), stretch S P z b h0 hs i (by omega), Finset.sum_range_succ _ (i + 1), add_assoc]

/-- The numerator cell after core `q`'s last step: the zero word plus the numerators of its sixteen points. -/
theorem numAt_last (c : Dev nD) (q : Fin 2) :
    numAt m c (16 * q.val + 15) = zeroW + ∑ i : Fin 16, pNum m c (16 * q.val + i.val) := by
  have hN : cfg0.N = 32 := N_0
  have hq := q.isLt
  rw [stretch (numAt m c) (pNum m c) zeroW (16 * q.val)
      (numAt_first m c _ (by omega) (by omega))
      (fun i hi => by
        have := numAt_next m c (16 * q.val + i) (by omega) (by omega)
        simpa [Nat.add_assoc] using this) 15 (by omega),
    Finset.sum_range]

theorem denAt_last (c : Dev nD) (q : Fin 2) :
    denAt m c (16 * q.val + 15) = zeroW + ∑ i : Fin 16, pDen m c (16 * q.val + i.val) := by
  have hN : cfg0.N = 32 := N_0
  have hq := q.isLt
  rw [stretch (denAt m c) (pDen m c) zeroW (16 * q.val)
      (denAt_first m c _ (by omega) (by omega))
      (fun i hi => by
        have := denAt_next m c (16 * q.val + i) (by omega) (by omega)
        simpa [Nat.add_assoc] using this) 15 (by omega),
    Finset.sum_range]

end Cert.KernelIdeal.Cells

end
-- ==== Proof.KValue.lean ====
/-
  The kernel's result: the output array after the run, and the quotient the host operations after the region make
  of it.

  The output array is `[2, 1, 128]`: block `q` is written back once, after core `q`'s last grid step (point
  `16·q + 15`), and holds in lane 0 the numerator cell and in lane 1 the denominator cell of that core.  The host
  then adds the two cores' numerators, adds their denominators, and returns the quotient where the denominator
  is positive.
-/
import proofs.«423741_j67611375173824_3_alg».proof.Proof.Cells
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Points Cert.KernelIdeal.Cells
open Cert.Loss (zeroW)

variable (m : (ℓ : Loc nD τ sig) → Buf (Elt Ideal) ℓ) (ρ : Dev nD → PrngReg)

/-- The output block as point `n` leaves it (zero past the grid). -/
def blockAt (c : Dev nD) (n : ℕ) (y : S1x1x128.Idx) : EReal := if h : n < cfg0.N then (outsAt0 m c n h).1 y else 0

theorem blockAt_eq (c : Dev nD) (n : ℕ) (t : Fin cfg0.N) (hn : n = t.val) (y : S1x1x128.Idx) :
    blockAt m c n y = (outsAt0 m c t.val t.isLt).1 y := by
  subst hn
  unfold blockAt
  rw [dif_pos t.isLt]

/-- The output array after the run: entry `(q, 0, lane)` is lane `lane` of what point `16·q + 15` wrote. -/
def outArr (c : Dev nD) : Buf (Elt Ideal) ((c.tc : Thread nD τ).loc main_v3) :=
  fun i => blockAt m c (16 * (i 0).val + 15) (ix3 (0 : Fin 1) (0 : Fin 1) (i 2))

/-- The output window's block index at point `t` is `(t / 16, 0, 0)`: decided over the grid. -/
theorem idx6 : ∀ t : Fin cfg0.N, win0_6.index t (0 : Fin 3) = t.val / 16 ∧ win0_6.index t (1 : Fin 3) = 0
    ∧ win0_6.index t (2 : Fin 3) = 0 :=
  (by decide +kernel : ∀ t : Fin grid0.N, _)

/-- What a flushing point writes back is its block of `outArr`. -/
theorem flushed6_eq (c : Dev nD) (t : Fin cfg0.N) (hf : (cfg0.win 6).flush t = true) :
    (dats m 0 c).flushed 6 t = ((cfg0.win 6).blk t).view.read (Elt Ideal) (outArr m c) := by
  have h15 : t.val % 16 = 15 := (flush0_6 t).mp hf
  obtain ⟨e0, e1, e2⟩ := idx6 t
  show (cfg0.win 6).cut (grid0.coords t) ((dats m 0 c).after 6 t) = _
  rw [after0_6]
  funext j
  show (outsAt0 m c t.val t.isLt).1 j = outArr m c (((cfg0.win 6).blk t).view.emb j)
  unfold outArr
  have hj0 : (j 0).val = 0 := by have h : (j 0).val < 1 := (j 0).isLt; omega
  have hj1 : (j 1).val = 0 := by have h : (j 1).val < 1 := (j 1).isLt; omega
  have hi0 : ((((cfg0.win 6).blk t).view.emb j) 0).val = t.val / 16 := by
    show win0_6.index t (0 : Fin 3) * 1 + 1 * (j 0).val = _
    omega
  have hi2 : ((((cfg0.win 6).blk t).view.emb j) 2).val = (j 2).val := by
    show win0_6.index t (2 : Fin 3) * 128 + 1 * (j 2).val = _
    omega
  rw [blockAt_eq m c _ t (by rw [hi0]; omega)]
  refine congrArg _ ?_
  funext a
  apply Fin.ext
  match a with
  | ⟨0, _⟩ => exact hj0
  | ⟨1, _⟩ => exact hj1
  | ⟨2, _⟩ => exact hi2.symm

/-- An index of the output array is in point `t`'s block iff each coordinate is in the block's range. -/
theorem mem_blk6 (t : Fin cfg0.N) (i : S2x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v3).slice (win0_6.rect t)).set ↔ _
  rw [View.set_slice_whole, Rect.mem_set_unit]
  exact Iff.rfl

/-- The two flushing points' blocks cover the output array. -/
theorem cover6 (i : S2x1x128.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 128 := (i 2).isLt
  have hlt : 16 * (i 0).val + 15 < cfg0.N := lt_of_lt_of_eq (by omega : 16 * (i 0).val + 15 < 32) (show cfg0.N = 32 from N_0).symm
  obtain ⟨e0, e1, e2⟩ := idx6 ⟨16 * (i 0).val + 15, hlt⟩
  have e0' : win0_6.index ⟨16 * (i 0).val + 15, hlt⟩ (0 : Fin 3) = (i 0).val := by
    rw [e0]; show (16 * (i 0).val + 15) / 16 = (i 0).val; omega
  refine ⟨⟨16 * (i 0).val + 15, hlt⟩, (flush0_6 _).mpr (by show (16 * (i 0).val + 15) % 16 = 15; omega), ?_⟩
  rw [mem_blk6]
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1 ≤ (i 1).val ∧ (i 1).val < win0_6.index _ (1 : Fin 3) * 1 + 1; omega
  | ⟨2, _⟩ => show win0_6.index _ (2 : Fin 3) * 128 ≤ (i 2).val ∧ (i 2).val < win0_6.index _ (2 : Fin 3) * 128 + 128; omega

/-- The output array after the run. -/
theorem final6 (c : Dev nD) : (dats m 0 c).arrAt 6 cfg0.N = outArr m c :=
  (dats m 0 c).arrAt_eq_of_cover 6 (outArr m c) (flushed6_eq m c) cover6

/-- One entry of the output array cut out as a `[1, 1, 1]` slice and reshaped to a scalar is that entry. -/
theorem slice_cell (X : S2x1x128.Idx → EReal) (off : Fin 3 → Nat) (h : S2x1x128.Slices off S1x1x1)
    (h2 : S1x1x1.ShapeCasts S_) (i : S_.Idx) (q : Fin 2) (lane : Fin 128)
    (e0 : off 0 = q.val) (e1 : off 1 = 0) (e2 : off 2 = lane.val) :
    shapeCast S_ (extractStridedSlice S1x1x1 off X h) h2 i = X (ix3 q (0 : Fin 1) lane) := by
  unfold shapeCast extractStridedSlice
  refine congrArg X ?_
  funext a
  apply Fin.ext
  match a with
  | ⟨0, _⟩ =>
    have hb : ((Shape.reshapeEquiv h2 i) (0 : Fin 3)).val < 1 := ((Shape.reshapeEquiv h2 i) (0 : Fin 3)).isLt
    show off 0 + ((Shape.reshapeEquiv h2 i) (0 : Fin 3)).val = q.val
    omega
  | ⟨1, _⟩ =>
    have hb : ((Shape.reshapeEquiv h2 i) (1 : Fin 3)).val < 1 := ((Shape.reshapeEquiv h2 i) (1 : Fin 3)).isLt
    show off 1 + ((Shape.reshapeEquiv h2 i) (1 : Fin 3)).val = 0
    omega
  | ⟨2, _⟩ =>
    have hb : ((Shape.reshapeEquiv h2 i) (2 : Fin 3)).val < 1 := ((Shape.reshapeEquiv h2 i) (2 : Fin 3)).isLt
    show off 2 + ((Shape.reshapeEquiv h2 i) (2 : Fin 3)).val = lane.val
    omega

/-- The host operations after the region, over any contents `W` of the buffers they read, with `X` what `W` holds at
    the output array: the quotient of the two cores' numerators by the two cores' denominators, read off lanes 0
    and 1 of the array's two blocks. -/
theorem tail_eq (W : Valuation τ sig (Elt Ideal)) (X : S2x1x128.Idx → EReal)
    (hX : (W (Proc.devRef .tc main_v3) : S2x1x128.Idx → EReal) = X) :
    StableHlo.after (List.flatten [hostOps1 (F := Ideal), hostOps1_1]) W (Proc.devRef .tc main_v17)
      = Cert.Loss.lossOf
          (fun _ => X (ix3 (0 : Fin 2) (0 : Fin 1) (0 : Fin 128)) + X (ix3 (1 : Fin 2) (0 : Fin 1) (0 : Fin 128)))
          (fun _ => X (ix3 (0 : Fin 2) (0 : Fin 1) (1 : Fin 128)) + X (ix3 (1 : Fin 2) (0 : Fin 1) (1 : Fin 128))) := by
  simp only [hostOps1, hostOps1_1, List.flatten_cons, List.flatten_nil, List.append_nil, List.cons_append, List.nil_append]
  after_results
  simp only [StableHlo.TRef.ofBuf, StableHlo.TRef.toBuf, cast_eq]
  unfold Cert.Loss.lossOf
  have e (off : Fin 3 → Nat) (h : S2x1x128.Slices off S1x1x1) (q : Fin 2) (lane : Fin 128)
      (e0 : off 0 = q.val) (e1 : off 1 = 0) (e2 : off 2 = lane.val) :
      (fun i => shapeCast S_ (extractStridedSlice S1x1x1 off X h) shapeCasts_S1x1x1_S_ i) = fun _ => X (ix3 q (0 : Fin 1) lane) :=
    funext fun i => slice_cell X off h _ i q lane e0 e1 e2
  rw [hX]
  have n0 := e ![0, 0, 0] slices_S2x1x128_S1x1x1_0_0_0 0 0 rfl rfl rfl
  have n1 := e ![1, 0, 0] slices_S2x1x128_S1x1x1_1_0_0 1 0 rfl rfl rfl
  have d0 := e ![0, 0, 1] slices_S2x1x128_S1x1x1_0_0_1 0 1 rfl rfl rfl
  have d1 := e ![1, 0, 1] slices_S2x1x128_S1x1x1_1_0_1 1 1 rfl rfl rfl
  erw [n0, n1, d0, d1]
  rfl

/-- The one entry of a `[1, 1]` cell, extracted. -/
theorem extract_o (v : Vec Ideal S1x1 .f32) (h : ∀ a, (![0, 0] : Fin 2 → Nat) a < S1x1.size a) : extractAt ![0, 0] v h = v o :=
  congrArg v (funext fun a => Fin.ext (by
    match a with
    | ⟨0, _⟩ => rfl
    | ⟨1, _⟩ => rfl))

/-- Lane 0 of the block the last step stores is the numerator cell, -/
theorem pay9_lane0 (v21 v23 : Vec Ideal S1x1 .f32) :
    k0_pay9 (F := Ideal) v21 v23 (ix3 (0 : Fin 1) (0 : Fin 1) (0 : Fin 128)) = v21 o := by
  unfold k0_pay9
  rw [← extract_o v21 inpos_S1x1_p0_0]
  rfl

/-- and lane 1 the denominator cell. -/
theorem pay9_lane1 (v21 v23 : Vec Ideal S1x1 .f32) :
    k0_pay9 (F := Ideal) v21 v23 (ix3 (0 : Fin 1) (0 : Fin 1) (1 : Fin 128)) = v23 o := by
  unfold k0_pay9
  rw [← extract_o v23 inpos_S1x1_p0_0]
  rfl

/-- Lane 0 of block `q` of the output array is core `q`'s numerator cell after its last step, -/
theorem outArr_num (c : Dev nD) (q : Fin 2) :
    outArr m c (ix3 q (0 : Fin 1) (0 : Fin 128)) = numAt m c (16 * q.val + 15) := by
  have hq := q.isLt
  have hlt : 16 * q.val + 15 < cfg0.N := lt_of_lt_of_eq (by omega : 16 * q.val + 15 < 32) (show cfg0.N = 32 from N_0).symm
  show blockAt m c (16 * q.val + 15) (ix3 (0 : Fin 1) (0 : Fin 1) (0 : Fin 128)) = _
  rw [blockAt_eq m c _ ⟨16 * q.val + 15, hlt⟩ rfl, out_last m c ⟨16 * q.val + 15, hlt⟩ (by show (16 * q.val + 15) % 16 = 15; omega),
    pay9_lane0]
  unfold numAt
  rw [dif_pos hlt]

/-- and lane 1 its denominator cell. -/
theorem outArr_den (c : Dev nD) (q : Fin 2) :
    outArr m c (ix3 q (0 : Fin 1) (1 : Fin 128)) = denAt m c (16 * q.val + 15) := by
  have hq := q.isLt
  have hlt : 16 * q.val + 15 < cfg0.N := lt_of_lt_of_eq (by omega : 16 * q.val + 15 < 32) (show cfg0.N = 32 from N_0).symm
  show blockAt m c (16 * q.val + 15) (ix3 (0 : Fin 1) (0 : Fin 1) (1 : Fin 128)) = _
  rw [blockAt_eq m c _ ⟨16 * q.val + 15, hlt⟩ rfl, out_last m c ⟨16 * q.val + 15, hlt⟩ (by show (16 * q.val + 15) % 16 = 15; omega),
    pay9_lane1]
  unfold denAt
  rw [dif_pos hlt]

end Cert.KernelIdeal.KValue

end
-- ==== Proof.PayLoss.lean ====
import proofs.«423741_j67611375173824_3_alg».proof.Proof.Gen.KernelIdeal.Skeleton
import proofs.«423741_j67611375173824_3_alg».proof.Proof.Spec
import Idealize.ShloMosaic.Lib.Pipeline.Value
import Idealize.ShloMosaic.Lib.ValueLayout
import Idealize.ShloMosaic.PureOps.Ideal.Laws

noncomputable section

namespace Cert.KernelIdeal.PayLoss

open Idealize.ShloMosaic Idealize.ShloMosaic.ValueIdx Cert.KernelIdeal Cert.KernelIdeal.Gen

/-! ## Layout steps read at an index -/

/-- A `[1, 1024]` row flattened to `[1024]` and folded to `[8, 128]` reads, at `(r, l)`, the row at column
    `128·r + l`: all three shapes list their entries in row-major order, and the position of `(r, l)` in `[8, 128]`
    is `r·128 + l`, that of `(0, c)` in `[1, 1024]` is `0·1024 + c`. -/
theorem relayout_apply {α : Type} (x : S1x1024.Idx → α) (h1 : S1x1024.ShapeCasts S1024)
    (h2 : S1024.ShapeCasts S8x128) (r : Fin 8) (l : Fin 128) :
    shapeCast S8x128 (shapeCast S1024 x h1) h2 (ix2 r l) = x (ix2 0 (Cert.Loss.claimOf r l)) := by
  refine (shapeCast_apply _ h2 (ix2 r l) (ix1 (Cert.Loss.claimOf r l)) ?_).trans ?_
  · rw [Shape.rowMajor_val_one, Shape.rowMajor_val_two]
    show 128 * r.val + l.val = r.val * 128 + l.val
    omega
  · refine shapeCast_apply x h1 _ (ix2 0 (Cert.Loss.claimOf r l)) ?_
    rw [Shape.rowMajor_val_two, Shape.rowMajor_val_one]
    show 0 * 1024 + (128 * r.val + l.val) = 128 * r.val + l.val
    omega

/-- A length-8 vector cast to an `[8, 1]` column reads, at `(r, 0)`, the vector at `r`. -/
theorem column_apply {α : Type} (y : S8.Idx → α) (h : S8.ShapeCasts S8x1) (r : Fin 8) :
    shapeCast S8x1 y h (ix2 r (0 : Fin 1)) = y (ix1 r) :=
  shapeCast_apply y h _ _ (by
    rw [Shape.rowMajor_val_one, Shape.rowMajor_val_two]
    show r.val = r.val * 1 + 0
    omega)

/-- A length-1 vector cast to a `[1, 1]` cell reads, at `(0, 0)`, the vector's one entry. -/
theorem cell_apply {α : Type} (z : S1.Idx → α) (h : S1.ShapeCasts S1x1) :
    shapeCast S1x1 z h (ix2 (0 : Fin 1) (0 : Fin 1)) = z (ix1 (0 : Fin 1)) :=
  shapeCast_apply z h _ _ (by
    rw [Shape.rowMajor_val_one, Shape.rowMajor_val_two]
    show 0 = 0 * 1 + 0
    omega)

/-! ## The two sums, over the extended reals -/

/-- The sum of an `[8, 128]` array over its lane axis is, at row `r`, the sum over the 128 lanes of the entries
    `(r, l)`: the reduced index `r` with the lane `l` put back on axis 1 is `(r, l)`. -/
theorem laneSum_apply (x : FVec Ideal S8x128 .f32) (h : S8x128.Reduces [1] S8) (hφ : FKind.Formats .f32)
    (hacc : (0x00000000#32 : BitVec 32) = FKind.add.neutral .f32 hφ) (r : Fin 8) :
    multiReduction .add [1] S8 x 0x00000000#32 h hφ hacc (ix1 r) = ∑ l : Fin 128, x (ix2 r l) := by
  refine (Ideal.multiReduction_add_single x _ h hφ hacc (ix1 r)).trans ?_
  show ∑ l : Fin 128, x (h.lift (ix1 r) l) = ∑ l : Fin 128, x (ix2 r l)
  refine Finset.sum_congr rfl fun l _ => congrArg x ?_
  funext a
  match a with
  | ⟨0, _⟩ => rfl
  | ⟨1, _⟩ => rfl

/-- The sum of an `[8, 1]` column over its row axis is, at its one index, the sum over the eight rows of the entries
    `(r, 0)`. -/
theorem rowSum_apply (x : FVec Ideal S8x1 .f32) (h : S8x1.Reduces [0] S1) (hφ : FKind.Formats .f32)
    (hacc : (0x00000000#32 : BitVec 32) = FKind.add.neutral .f32 hφ) :
    multiReduction .add [0] S1 x 0x00000000#32 h hφ hacc (ix1 (0 : Fin 1)) = ∑ r : Fin 8, x (ix2 r (0 : Fin 1)) := by
  refine (Ideal.multiReduction_add_single x _ h hφ hacc (ix1 0)).trans ?_
  show ∑ r : Fin 8, x (h.lift (ix1 0) r) = ∑ r : Fin 8, x (ix2 r 0)
  refine Finset.sum_congr rfl fun r _ => congrArg x ?_
  funext a
  match a with
  | ⟨0, _⟩ => rfl
  | ⟨1, _⟩ => rfl

/-- Lanes first, rows second: the cell that adds a carried value to the sum of an `[8, 128]` array taken over the lane
    axis, set up as a column, and summed over the row axis, holds the carried value plus the double sum of the array's
    entries. -/
theorem cellSum_apply (acc : FVec Ideal S1x1 .f32) (x : FVec Ideal S8x128 .f32)
    (h1 : S8x128.Reduces [1] S8) (c1 : S8.ShapeCasts S8x1) (h2 : S8x1.Reduces [0] S1) (c2 : S1.ShapeCasts S1x1)
    (hφ : FKind.Formats .f32) (hacc : (0x00000000#32 : BitVec 32) = FKind.add.neutral .f32 hφ) :
    acc (ix2 0 0) + shapeCast S1x1 (multiReduction .add [0] S1 (shapeCast S8x1
        (multiReduction .add [1] S8 x 0x00000000#32 h1 hφ hacc) c1) 0x00000000#32 h2 hφ hacc) c2 (ix2 0 0)
      = acc (ix2 0 0) + ∑ r : Fin 8, ∑ l : Fin 128, x (ix2 r l) := by
  refine congrArg (acc (ix2 0 0) + ·) ?_
  refine (cell_apply _ _).trans ?_
  refine (rowSum_apply _ _ _ _).trans ?_
  refine Finset.sum_congr rfl fun r _ => ?_
  refine (column_apply _ _ r).trans ?_
  exact laneSum_apply _ _ _ _ r

/-! ## The payloads -/

/-- A batch row's 1024 words laid out as `[8, 128]`: claim `128·r + l` at `(r, l)`. -/
theorem pay11_apply (v51 : Vec Ideal S1x1024 .i32) (r : Fin 8) (l : Fin 128) :
    k0_pay11 (F := Ideal) v51 (ix2 r l) = v51 (ix2 0 (Cert.Loss.claimOf r l)) :=
  relayout_apply v51 _ _ r l

theorem pay12_apply (v55 : Vec Ideal S1x1024 .i32) (r : Fin 8) (l : Fin 128) :
    k0_pay12 (F := Ideal) v55 (ix2 r l) = v55 (ix2 0 (Cert.Loss.claimOf r l)) :=
  relayout_apply v55 _ _ r l

theorem pay13_apply (v59 : Vec Ideal S1x1024 .i32) (r : Fin 8) (l : Fin 128) :
    k0_pay13 (F := Ideal) v59 (ix2 r l) = v59 (ix2 0 (Cert.Loss.claimOf r l)) :=
  relayout_apply v59 _ _ r l

/-- One batch row's contribution to the numerator: the carried cell plus the row's 1024 weighted entropies, added
    over the lanes first and the eight sublane rows second.  `p` holds the gathered probabilities, `rel`, `it`,
    `mk` the relation codes, truth values and widened mask words, all as `[8, 128]`.

    Every operation between the arguments and the first sum acts entry by entry, and over the extended reals each is
    the operation `Cert.Loss.term` is written with, in the same order: the array summed is, entry by entry,
    `term (p i) (rel i) (it i) (mk i)`, by unfolding alone.  The rest is the double sum. -/
theorem pay5_apply (acc : FVec Ideal S1x1 .f32) (p : FVec Ideal S8x128 .f32) (rel it mk : IVec S8x128 32) :
    k0_pay5 (F := Ideal) acc p rel it mk (cmpi .eq rel (broadcast S8x128 1#32)) (cmpi .eq rel (broadcast S8x128 3#32))
        (ix2 (0 : Fin 1) (0 : Fin 1))
      = acc (ix2 0 0) + ∑ r : Fin 8, ∑ l : Fin 128,
          Cert.Loss.term (p (ix2 r l)) (rel (ix2 r l)) (it (ix2 r l)) (mk (ix2 r l)) :=
  cellSum_apply acc (fun i => Cert.Loss.term (p i) (rel i) (it i) (mk i)) _ _ _ _ _ _

/-- One batch row's contribution to the denominator: the carried cell plus the row's 1024 weights. -/
theorem pay6_apply (acc : FVec Ideal S1x1 .f32) (mk : IVec S8x128 32) :
    k0_pay6 (F := Ideal) acc mk (ix2 (0 : Fin 1) (0 : Fin 1))
      = acc (ix2 0 0) + ∑ r : Fin 8, ∑ l : Fin 128, Cert.Loss.weight (mk (ix2 r l)) :=
  cellSum_apply acc (fun i => Cert.Loss.weight (mk i)) _ _ _ _ _ _

/-- The two relation tests the loop body passes on are the tests of the relayed-out relation codes. -/
theorem pay14_eq (v51 : Vec Ideal S1x1024 .i32) :
    k0_pay14 (F := Ideal) v51 = cmpi .eq (k0_pay11 (F := Ideal) v51) (broadcast S8x128 1#32) := rfl

theorem pay15_eq (v51 : Vec Ideal S1x1024 .i32) :
    k0_pay15 (F := Ideal) v51 = cmpi .eq (k0_pay11 (F := Ideal) v51) (broadcast S8x128 3#32) := rfl

end Cert.KernelIdeal.PayLoss

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.PayGather.lean ====
import proofs.«423741_j67611375173824_3_alg».proof.Proof.Gen.KernelIdeal.Skeleton
import proofs.«423741_j67611375173824_3_alg».proof.Proof.Spec
import proofs.«423741_j67611375173824_3_alg».proof.Proof.LibPlainDot
import proofs.«423741_j67611375173824_3_alg».proof.Proof.LibColumn
import Idealize.ShloMosaic.Lib.Pipeline.Value
import Idealize.ShloMosaic.Lib.ValueLayout
import Idealize.ShloMosaic.PureOps.Ideal.Laws

noncomputable section

namespace Cert.KernelIdeal.PayGather

open Idealize.ShloMosaic Idealize.ShloMosaic.ValueIdx Cert.KernelIdeal Cert.KernelIdeal.Gen
open scoped BigOperators

/-- The dimension numbers of the two products are the plain product's: contract the left operand's second
    axis with the right operand's first. -/
theorem dot_eq_plain : dot_S1024x512_S512x512_S1024x512_1_0_0_1_n_n = DotDims.plain 1024 512 512 := rfl

/-- A sum against a one-hot row keeps the one term the row selects: `0 · x = 0` and `1 · x = x` on the extended reals. -/
theorem sum_onehot_mul {K : ℕ} (a : Fin K) (f : Fin K → EReal) :
    ∑ n : Fin K, (if n = a then (1 : EReal) else 0) * f n = f a := by
  rw [Finset.sum_eq_single a]
  · rw [if_pos rfl, one_mul]
  · intro b _ hb; rw [if_neg hb, zero_mul]
  · intro h; exact absurd (Finset.mem_univ a) h

/-- A sum of a row masked to one lane is the row at that lane. -/
theorem sum_masked {K : ℕ} (b : Fin K) (f : Fin K → EReal) :
    ∑ k : Fin K, (if k = b then f k else 0) = f b := by
  rw [Finset.sum_ite_eq' Finset.univ b f, if_pos (Finset.mem_univ b)]

/-- Comparing the lane number `n < 512` with an index word `w` below 512: the words are equal exactly when `n` is
    the position `w` names. -/
theorem cmpi_eq_lane (w : BitVec 32) (h : w.toNat < 512) (n : Fin 512) :
    IntOp.cmpi .eq (BitVec.ofNat 32 n.val) w = if n = Cert.Loss.pos w h then 1#1 else 0#1 := by
  unfold IntOp.cmpi
  by_cases hn : n = Cert.Loss.pos w h
  · rw [if_pos hn]; subst hn; simp
  · rw [if_neg hn]
    have hne : ¬ BitVec.ofNat 32 n.val = w := fun e => hn (Fin.ext (by
      have e' := congrArg BitVec.toNat e
      simp at e'
      have := n.isLt
      show n.val = w.toNat
      omega))
    rw [beq_eq_false_iff_ne.mpr hne]; rfl

/-- The index column: a row's 1024 index words, cast to a column and broadcast along the 512 lanes, read the word of
    claim `j` on every lane. -/
theorem column_apply (v : Vec Ideal S1x1024 .i32) (j : Fin 1024) (k : Fin 512) :
    broadcastTo S1024x512 (shapeCast S1024x1 (shapeCast S1024 v shapeCasts_S1x1024_S1024) shapeCasts_S1024_S1024x1)
      broadcasts_S1024x1_S1024x512 (ix2 j k) = v (ix2 0 j) :=
  (Column.broadcastTo_a1_ab_apply _ _ j k).trans
    ((Column.shapeCast_a_a1_apply _ _ j 0).trans (shapeCast_1a_a_apply _ _ j))

/-- The lane counter along the second axis reads the lane number. -/
theorem lane_apply (j : Fin 1024) (k : Fin 512) :
    iota .tc S1024x512 32 [1] iota_S1024x512_d1_w32 (ix2 j k) = BitVec.ofNat 32 k.val :=
  iota_single_apply .tc S1024x512 32 1 iota_S1024x512_d1_w32 (ix2 j k)

/-- The lanes on which the lane counter equals a row's index column. -/
abbrev hits (v : Vec Ideal S1x1024 .i32) : IVec S1024x512 1 :=
  cmpi .eq (iota .tc S1024x512 32 [1] iota_S1024x512_d1_w32)
    (broadcastTo S1024x512 (shapeCast S1024x1 (shapeCast S1024 v shapeCasts_S1x1024_S1024) shapeCasts_S1024_S1024x1)
      broadcasts_S1024x1_S1024x512)

/-- The one-hot rows: the comparison bits widened, converted to numbers and narrowed to bf16. -/
abbrev onehot (v : Vec Ideal S1x1024 .i32) : FVec Ideal S1024x512 .bf16 :=
  truncf .bf16 (sitofp (F := Ideal) .f32 (extui 32 (hits v) natLt_1_32)) bitsLt_bf16_f32

/-- The row's adjacency matrix with its unit axis dropped. -/
abbrev mat (v21 : Vec Ideal S1x512x512 .f32) : FVec Ideal S512x512 .f32 :=
  shapeCast S512x512 v21 shapeCasts_S1x512x512_S512x512

/-- The comparison at `(j, k)`: lane `k` against the word of claim `j`. -/
theorem hit_apply (v : Vec Ideal S1x1024 .i32) (hv : ∀ j : Fin 1024, (v (ix2 0 j)).toNat < 512) (j : Fin 1024) (k : Fin 512) :
    hits v (ix2 j k) = if k = Cert.Loss.pos _ (hv j) then 1#1 else 0#1 := by
  show IntOp.cmpi .eq (iota .tc S1024x512 32 [1] iota_S1024x512_d1_w32 (ix2 j k))
      (broadcastTo S1024x512 (shapeCast S1024x1 (shapeCast S1024 v shapeCasts_S1x1024_S1024) shapeCasts_S1024_S1024x1)
        broadcasts_S1024x1_S1024x512 (ix2 j k)) = _
  rw [lane_apply, column_apply]
  exact cmpi_eq_lane _ (hv j) k

/-- The one-hot row of claim `j`: `1` on the lane the index names and `0` elsewhere (the narrowing to bf16 changes
    nothing on exact values). -/
theorem onehot_apply (v : Vec Ideal S1x1024 .i32) (hv : ∀ j : Fin 1024, (v (ix2 0 j)).toNat < 512) (j : Fin 1024) (n : Fin 512) :
    onehot v (ix2 j n) = if n = Cert.Loss.pos _ (hv j) then (1 : EReal) else 0 := by
  show FloatOps.sitofp (F := Ideal) .f32 ((hits v (ix2 j n)).setWidth 32) = _
  rw [hit_apply v hv j n]
  by_cases hn : n = Cert.Loss.pos _ (hv j)
  · rw [if_pos hn, if_pos hn]
    show (((BitVec.setWidth 32 1#1).toInt : ℝ) : EReal) = 1
    have : (BitVec.setWidth 32 1#1).toInt = 1 := by decide
    rw [this]; simp
  · rw [if_neg hn, if_neg hn]
    show (((BitVec.setWidth 32 0#1).toInt : ℝ) : EReal) = 0
    have : (BitVec.setWidth 32 0#1).toInt = 0 := by decide
    rw [this]; simp

/-- The matrix with its unit axis dropped, at `(n, k)`. -/
theorem mat_apply (v21 : Vec Ideal S1x512x512 .f32) (n k : Fin 512) : mat v21 (ix2 n k) = v21 (ix3 0 n k) :=
  shapeCast_1ab_ab_apply v21 _ n k

/-- The one-hot rows times the matrix: entry `(j, k)` is the matrix at `(v24 j, k)`, the one term of the contraction
    the one-hot row keeps. -/
theorem pick_apply (v21 : Vec Ideal S1x512x512 .f32) (v : Vec Ideal S1x1024 .i32)
    (hv : ∀ j : Fin 1024, (v (ix2 0 j)).toNat < 512) (j : Fin 1024) (k : Fin 512) :
    matmul dot_S1024x512_S512x512_S1024x512_1_0_0_1_n_n none (onehot v) (truncf .bf16 (mat v21) bitsLt_bf16_f32)
        (constant (F := Ideal) S1024x512 .f32 0x00000000#32) (ix2 j k)
      = v21 (ix3 0 (Cert.Loss.pos _ (hv j)) k) := by
  refine (PlainDot.matmul_zero_apply (M := 1024) (K := 512) (N := 512) none _ _ j k).trans ?_
  refine (Finset.sum_congr rfl fun n _ => ?_).trans
    (sum_onehot_mul (Cert.Loss.pos _ (hv j)) fun n => v21 (ix3 0 n k))
  rw [onehot_apply v hv j n]
  exact congrArg _ (mat_apply v21 n k)

/-- The one-hot rows times the residual `A - A`: every entry of the residual is `x - x = 0` for a real `x`, so the
    product is zero. -/
theorem residual_apply (v21 : Vec Ideal S1x512x512 .f32) (hfin : ∀ y, ∃ x : ℝ, v21 y = (x : EReal))
    (v : Vec Ideal S1x1024 .i32) (j : Fin 1024) (k : Fin 512) :
    matmul dot_S1024x512_S512x512_S1024x512_1_0_0_1_n_n none (onehot v)
        (truncf .bf16 (subf (mat v21) (mat v21)) bitsLt_bf16_f32)
        (constant (F := Ideal) S1024x512 .f32 0x00000000#32) (ix2 j k)
      = 0 := by
  refine (PlainDot.matmul_zero_apply (M := 1024) (K := 512) (N := 512) none _ _ j k).trans ?_
  refine Finset.sum_eq_zero fun n _ => ?_
  show onehot v (ix2 j n) * (mat v21 (ix2 n k) - mat v21 (ix2 n k)) = 0
  rw [mat_apply]
  obtain ⟨x, hx⟩ := hfin (ix3 0 n k)
  rw [hx, ← EReal.coe_sub, sub_self, EReal.coe_zero, mul_zero]

/-- A select on a decided bit is the `if` on the decision. -/
theorem select_ite {α : Type} (c : Prop) [Decidable c] (x y : α) :
    Scalar.select (if c then 1#1 else 0#1) x y = if c then x else y := by
  by_cases hc : c
  · rw [if_pos hc, if_pos hc]; exact select_one x y
  · rw [if_neg hc, if_neg hc]; exact select_zero x y

/-- The gathered probabilities of one batch row.  `v21` is the row's adjacency matrix (as a `[1, 512, 512]` block),
    `v24` and `v28` its 1024 row and column indices.  With real entries and indices below 512 the one-hot product
    picks row `v24 j` of the matrix, the residual `v21 - v21` contributes zero, and the masked lane sum picks column
    `v28 j`; claim `j = 128·r + l` lands at `(r, l)` of the `[8, 128]` result. -/
theorem pay10_apply (v21 : Vec Ideal S1x512x512 .f32) (v24 v28 : Vec Ideal S1x1024 .i32)
    (hfin : ∀ y, ∃ x : ℝ, v21 y = (x : EReal))
    (ha : ∀ j : Fin 1024, (v24 (ix2 0 j)).toNat < 512) (hb : ∀ j : Fin 1024, (v28 (ix2 0 j)).toNat < 512)
    (r : Fin 8) (l : Fin 128) :
    k0_pay10 (F := Ideal) (iota .tc S1024x512 32 [1] iota_S1024x512_d1_w32) v21 v24 v28 (ix2 r l)
      = v21 (ix3 0 (Cert.Loss.pos _ (ha (Cert.Loss.claimOf r l))) (Cert.Loss.pos _ (hb (Cert.Loss.claimOf r l)))) := by
  unfold k0_pay10
  refine (shapeCast_apply _ _ (ix2 r l) (ix2 (Cert.Loss.claimOf r l) (0 : Fin 1)) ?_).trans ?_
  · rw [Shape.rowMajor_val_two, Shape.rowMajor_val_two]
    show (128 * r.val + l.val) * 1 + 0 = r.val * 128 + l.val
    omega
  refine (Column.shapeCast_a_a1_apply _ _ (Cert.Loss.claimOf r l) 0).trans ?_
  refine (Ideal.multiReduction_add_single _ _ _ _ _ (ix1 (Cert.Loss.claimOf r l))).trans ?_
  have hlift : ∀ k : Fin 512, reduces_S1024x512_S1024.lift (ix1 (Cert.Loss.claimOf r l)) k = ix2 (Cert.Loss.claimOf r l) k :=
    fun k => funext fun a => Fin.ext (match a with | ⟨0, _⟩ => rfl | ⟨1, _⟩ => rfl)
  refine (Finset.sum_congr rfl fun (k : Fin 512) _ => ?_).trans
    (sum_masked (Cert.Loss.pos _ (hb (Cert.Loss.claimOf r l)))
      fun k => v21 (ix3 0 (Cert.Loss.pos _ (ha (Cert.Loss.claimOf r l))) k))
  rw [hlift k]
  show Scalar.select (hits v28 (ix2 (Cert.Loss.claimOf r l) k))
      (matmul dot_S1024x512_S512x512_S1024x512_1_0_0_1_n_n none (onehot v24) (truncf .bf16 (mat v21) bitsLt_bf16_f32)
          (constant (F := Ideal) S1024x512 .f32 0x00000000#32) (ix2 (Cert.Loss.claimOf r l) k)
        + matmul dot_S1024x512_S512x512_S1024x512_1_0_0_1_n_n none (onehot v24)
          (truncf .bf16 (subf (mat v21) (mat v21)) bitsLt_bf16_f32)
          (constant (F := Ideal) S1024x512 .f32 0x00000000#32) (ix2 (Cert.Loss.claimOf r l) k))
      (Ideal.ofBits .f32 0x00000000#32) = _
  rw [hit_apply v28 hb, pick_apply v21 v24 ha, residual_apply v21 hfin v24, add_zero, Ideal.ofBits_zero_f32]
  exact select_ite _ _ _

end Cert.KernelIdeal.PayGather

end
-- ==== Proof.RowSum.lean ====
import proofs.«423741_j67611375173824_3_alg».proof.Proof.Trip
import proofs.«423741_j67611375173824_3_alg».proof.Proof.PayLoss
import proofs.«423741_j67611375173824_3_alg».proof.Proof.PayGather
import proofs.«423741_j67611375173824_3_alg».proof.Proof.Spec

noncomputable section

namespace Cert.KernelIdeal.RowSum

open Idealize.ShloMosaic Idealize.ShloMosaic.ValueIdx Cert.KernelIdeal Cert.KernelIdeal.Gen Cert.KernelIdeal.Trip

/-! ## What a trip loads -/

/-- Row `k` of a word block, as loaded: the unit-stride window at offset `(k, 0)` places its entry `(0, j)` at
    `(k + 1·0, 0 + 1·j) = (k, j)` of the block. -/
theorem rowW_apply (x : Vec Ideal S8x1024 .i32) (k : Fin k0_t1_loop.trips) (hk : k.val < 8) (j : Fin 1024) :
    rowW x k (ix2 (0 : Fin 1) j) = x (ix2 (⟨k.val, hk⟩ : Fin 8) j) := by
  refine congrArg x (funext fun a => Fin.ext ?_)
  show k0_off2 k a + 1 * ((ix2 (0 : Fin 1) j) a).val = _
  rw [k0_off2_eq]
  match a with
  | ⟨0, _⟩ => show k.val + 1 * 0 = k.val; omega
  | ⟨1, _⟩ => show 0 + 1 * j.val = j.val; omega

/-- Row `k` of the adjacency block, as loaded: the window at offset `(k, 0, 0)` places its entry `(0, a, b)` at
    `(k, a, b)` of the block. -/
theorem rowA_apply (x : Vec Ideal S8x512x512 .f32) (k : Fin k0_t1_loop.trips) (hk : k.val < 8) (a b : Fin 512) :
    rowA x k (ix3 (0 : Fin 1) a b) = x (ix3 (⟨k.val, hk⟩ : Fin 8) a b) := by
  refine congrArg x (funext fun c => Fin.ext ?_)
  show k0_off1 k c + 1 * ((ix3 (0 : Fin 1) a b) c).val = _
  rw [k0_off1_eq]
  match c with
  | ⟨0, _⟩ => show k.val + 1 * 0 = k.val; omega
  | ⟨1, _⟩ => show 0 + 1 * a.val = a.val; omega
  | ⟨2, _⟩ => show 0 + 1 * b.val = b.val; omega

/-- The cell the loop starts from holds the zero word. -/
theorem zeroCell : k0_pay3 (F := Ideal) (ix2 (0 : Fin 1) (0 : Fin 1)) = Cert.Loss.zeroW := rfl

/-- An adjacency entry named by two index words depends on the words only, not on how they are known to be below
    512. -/
theorem gather_congr (x0 : Vec Ideal S8x512x512 .f32) (k : Fin 8) {w1 w1' w2 w2' : BitVec 32} (e1 : w1 = w1') (e2 : w2 = w2')
    (h1 : w1.toNat < 512) (h1' : w1'.toNat < 512) (h2 : w2.toNat < 512) (h2' : w2'.toNat < 512) :
    x0 (ix3 k (Cert.Loss.pos w1 h1) (Cert.Loss.pos w2 h2)) = x0 (ix3 k (Cert.Loss.pos w1' h1') (Cert.Loss.pos w2' h2')) := by
  subst e1 e2; rfl

/-! ## One batch row's two contributions -/

/-- Batch row `k`'s contribution to the numerator: its 1024 weighted entropies, claim `128·r + l` at `(r, l)`. -/
def rowNum (x0 : Vec Ideal S8x512x512 .f32) (x1 x2 x3 x4 x5 : Vec Ideal S8x1024 .i32)
    (ha : ∀ y, (x1 y).toNat < 512) (hb : ∀ y, (x2 y).toNat < 512) (k : Fin 8) : EReal :=
  ∑ r : Fin 8, ∑ l : Fin 128,
    Cert.Loss.term
      (x0 (ix3 k (Cert.Loss.pos (x1 (ix2 k (Cert.Loss.claimOf r l))) (ha _))
                 (Cert.Loss.pos (x2 (ix2 k (Cert.Loss.claimOf r l))) (hb _))))
      (x3 (ix2 k (Cert.Loss.claimOf r l))) (x4 (ix2 k (Cert.Loss.claimOf r l)))
      (x5 (ix2 k (Cert.Loss.claimOf r l)))

/-- Batch row `k`'s contribution to the denominator: its 1024 weights. -/
def rowDen (x5 : Vec Ideal S8x1024 .i32) (k : Fin 8) : EReal :=
  ∑ r : Fin 8, ∑ l : Fin 128, Cert.Loss.weight (x5 (ix2 k (Cert.Loss.claimOf r l)))

/-- Trip `k` adds row `k`'s numerator contribution to the carried numerator cell.  The cell is the carried value
    plus the double sum of the per-claim terms of the loaded rows; the loaded relation codes, truth values and mask
    words at `(r, l)` are the rows at claim `128·r + l`, the gathered probability there is the loaded adjacency row
    at the two loaded index words of that claim, and a loaded row's entry is the block's entry in row `k`. -/
theorem step_fst (x0 : Vec Ideal S8x512x512 .f32) (x1 x2 x3 x4 x5 : Vec Ideal S8x1024 .i32)
    (hfin : ∀ y, ∃ x : ℝ, x0 y = (x : EReal))
    (ha : ∀ y, (x1 y).toNat < 512) (hb : ∀ y, (x2 y).toNat < 512)
    (k : Fin k0_t1_loop.trips) (hk : k.val < 8) (acc : FVec Ideal S1x1 .f32 × FVec Ideal S1x1 .f32) :
    (step (F := Ideal) lanes x0 x1 x2 x3 x4 x5 k acc).1 (ix2 (0 : Fin 1) (0 : Fin 1))
      = acc.1 (ix2 0 0) + rowNum x0 x1 x2 x3 x4 x5 ha hb ⟨k.val, hk⟩ := by
  have hfin' : ∀ y, ∃ x : ℝ, rowA x0 k y = (x : EReal) := fun y => hfin _
  have ha' : ∀ j : Fin 1024, (rowW x1 k (ix2 0 j)).toNat < 512 := fun j => ha _
  have hb' : ∀ j : Fin 1024, (rowW x2 k (ix2 0 j)).toNat < 512 := fun j => hb _
  refine (PayLoss.pay5_apply acc.1 (k0_pay10 (F := Ideal) lanes (rowA x0 k) (rowW x1 k) (rowW x2 k))
    (k0_pay11 (F := Ideal) (rowW x3 k)) (k0_pay12 (F := Ideal) (rowW x4 k)) (k0_pay13 (F := Ideal) (rowW x5 k))).trans ?_
  refine congrArg (acc.1 (ix2 0 0) + ·) ?_
  refine Finset.sum_congr rfl fun r _ => Finset.sum_congr rfl fun l _ => ?_
  rw [PayLoss.pay11_apply, PayLoss.pay12_apply, PayLoss.pay13_apply,
    PayGather.pay10_apply (rowA x0 k) (rowW x1 k) (rowW x2 k) hfin' ha' hb' r l,
    rowA_apply x0 k hk, rowW_apply x3 k hk, rowW_apply x4 k hk, rowW_apply x5 k hk]
  exact congrArg (fun t => Cert.Loss.term t _ _ _)
    (gather_congr x0 ⟨k.val, hk⟩ (rowW_apply x1 k hk _) (rowW_apply x2 k hk _) _ _ _ _)

/-- Trip `k` adds row `k`'s weights to the carried denominator cell. -/
theorem step_snd (x0 : Vec Ideal S8x512x512 .f32) (x1 x2 x3 x4 x5 : Vec Ideal S8x1024 .i32)
    (k : Fin k0_t1_loop.trips) (hk : k.val < 8) (acc : FVec Ideal S1x1 .f32 × FVec Ideal S1x1 .f32) :
    (step (F := Ideal) lanes x0 x1 x2 x3 x4 x5 k acc).2 (ix2 (0 : Fin 1) (0 : Fin 1))
      = acc.2 (ix2 0 0) + rowDen x5 ⟨k.val, hk⟩ := by
  refine (PayLoss.pay6_apply acc.2 (k0_pay13 (F := Ideal) (rowW x5 k))).trans ?_
  refine congrArg (acc.2 (ix2 0 0) + ·) ?_
  refine Finset.sum_congr rfl fun r _ => Finset.sum_congr rfl fun l _ => ?_
  rw [PayLoss.pay13_apply, rowW_apply x5 k hk]

/-! ## The carried pair after `n` trips -/

/-- Below the trip count the carried pair advances by one trip. -/
theorem carry_succ (x0 : Vec Ideal S8x512x512 .f32) (x1 x2 x3 x4 x5 : Vec Ideal S8x1024 .i32) (n : ℕ)
    (h : n < k0_t1_loop.trips) :
    carry (F := Ideal) lanes x0 x1 x2 x3 x4 x5 (n + 1)
      = step lanes x0 x1 x2 x3 x4 x5 ⟨n, h⟩ (carry lanes x0 x1 x2 x3 x4 x5 n) := by
  show (if h : n < k0_t1_loop.trips then _ else _) = _
  rw [dif_pos h]

/-- After `n ≤ 8` trips the numerator cell holds the zero word plus the contributions of rows `0 … n - 1`, added in
    that order: by induction on `n`, the last trip adding row `n`'s contribution on the right. -/
theorem carry_fst (x0 : Vec Ideal S8x512x512 .f32) (x1 x2 x3 x4 x5 : Vec Ideal S8x1024 .i32)
    (hfin : ∀ y, ∃ x : ℝ, x0 y = (x : EReal))
    (ha : ∀ y, (x1 y).toNat < 512) (hb : ∀ y, (x2 y).toNat < 512) (n : ℕ) (hn : n ≤ 8) :
    (carry (F := Ideal) lanes x0 x1 x2 x3 x4 x5 n).1 (ix2 (0 : Fin 1) (0 : Fin 1))
      = Cert.Loss.zeroW + ∑ k : Fin n, rowNum x0 x1 x2 x3 x4 x5 ha hb ⟨k.val, by have := k.isLt; omega⟩ := by
  induction n with
  | zero => rw [Finset.univ_eq_empty, Finset.sum_empty, add_zero]; rfl
  | succ n ih =>
    have h : n < k0_t1_loop.trips := by rw [trips_eq]; omega
    rw [carry_succ x0 x1 x2 x3 x4 x5 n h, step_fst x0 x1 x2 x3 x4 x5 hfin ha hb ⟨n, h⟩ (by show n < 8; omega),
      ih (by omega), Fin.sum_univ_castSucc, add_assoc]
    rfl

/-- After `n ≤ 8` trips the denominator cell holds the zero word plus the weights of rows `0 … n - 1`. -/
theorem carry_snd (x0 : Vec Ideal S8x512x512 .f32) (x1 x2 x3 x4 x5 : Vec Ideal S8x1024 .i32) (n : ℕ) (hn : n ≤ 8) :
    (carry (F := Ideal) lanes x0 x1 x2 x3 x4 x5 n).2 (ix2 (0 : Fin 1) (0 : Fin 1))
      = Cert.Loss.zeroW + ∑ k : Fin n, rowDen x5 ⟨k.val, by have := k.isLt; omega⟩ := by
  induction n with
  | zero => rw [Finset.univ_eq_empty, Finset.sum_empty, add_zero]; rfl
  | succ n ih =>
    have h : n < k0_t1_loop.trips := by rw [trips_eq]; omega
    rw [carry_succ x0 x1 x2 x3 x4 x5 n h, step_snd x0 x1 x2 x3 x4 x5 ⟨n, h⟩ (by show n < 8; omega),
      ih (by omega), Fin.sum_univ_castSucc, add_assoc]
    rfl

/-! ## The loop's end: eight trips -/

/-- The numerator cell the loop over one staged block ends with: from the zero word, the weighted entropies of the
    block's eight batch rows, each row's 1024 claims as 8 rows of 128 lanes.  `x0` is the adjacency block, `x1`, `x2`
    the row and column index blocks (entries below 512), `x3`, `x4`, `x5` the relation codes, truth values and
    widened mask words. -/
theorem loopEnd_fst (x0 : Vec Ideal S8x512x512 .f32) (x1 x2 x3 x4 x5 : Vec Ideal S8x1024 .i32)
    (hfin : ∀ y, ∃ x : ℝ, x0 y = (x : EReal))
    (ha : ∀ y, (x1 y).toNat < 512) (hb : ∀ y, (x2 y).toNat < 512) :
    (loopEnd (F := Ideal) x0 x1 x2 x3 x4 x5).1 (ix2 (0 : Fin 1) (0 : Fin 1))
      = Cert.Loss.zeroW + ∑ k : Fin 8, ∑ r : Fin 8, ∑ l : Fin 128,
          Cert.Loss.term
            (x0 (ix3 k (Cert.Loss.pos (x1 (ix2 k (Cert.Loss.claimOf r l))) (ha _))
                       (Cert.Loss.pos (x2 (ix2 k (Cert.Loss.claimOf r l))) (hb _))))
            (x3 (ix2 k (Cert.Loss.claimOf r l))) (x4 (ix2 k (Cert.Loss.claimOf r l)))
            (x5 (ix2 k (Cert.Loss.claimOf r l))) := by
  show (carry (F := Ideal) lanes x0 x1 x2 x3 x4 x5 k0_t1_loop.trips).1 _ = _
  rw [trips_eq]
  exact carry_fst x0 x1 x2 x3 x4 x5 hfin ha hb 8 (le_refl 8)

/-- The denominator cell the loop ends with: from the zero word, the weights of the block's 8 × 1024 claims. -/
theorem loopEnd_snd (x0 : Vec Ideal S8x512x512 .f32) (x1 x2 x3 x4 x5 : Vec Ideal S8x1024 .i32) :
    (loopEnd (F := Ideal) x0 x1 x2 x3 x4 x5).2 (ix2 (0 : Fin 1) (0 : Fin 1))
      = Cert.Loss.zeroW + ∑ k : Fin 8, ∑ r : Fin 8, ∑ l : Fin 128,
          Cert.Loss.weight (x5 (ix2 k (Cert.Loss.claimOf r l))) := by
  show (carry (F := Ideal) lanes x0 x1 x2 x3 x4 x5 k0_t1_loop.trips).2 _ = _
  rw [trips_eq]
  exact carry_snd x0 x1 x2 x3 x4 x5 8 (le_refl 8)

end Cert.KernelIdeal.RowSum

end
-- ==== Proof.PreFacts.lean ====
import proofs.«423741_j67611375173824_3_alg».proof.Pre_finite_inputs
import proofs.«423741_j67611375173824_3_alg».proof.Proof.Gen.Pre_finite_inputs
import proofs.«423741_j67611375173824_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

/-- An extended real whose absolute value (the larger of it and its negation) is strictly below the f32 word for
    `+∞`, which denotes `⊤`, is neither `⊤` nor `⊥`: it is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  simp only [StableHlo.Predicate.ofBool_eq_one_iff, decide_eq_true_eq] at h
  induction x using EReal.rec with
  | bot => simp at h
  | coe r => exact ⟨r, rfl⟩
  | top => simp at h

/-- A 32-bit word that is, read signed, at least 0 and below 512 has its sign bit clear, so its unsigned value is its
    signed value and is below 512. -/
theorem toNat_lt_of_signed (w : BitVec 32) (h0 : IntOp.cmpi .sge w 0#32 = 1#1)
    (h1 : IntOp.cmpi .slt w 512#32 = 1#1) : w.toNat < 512 := by
  unfold IntOp.cmpi at h0 h1
  rw [StableHlo.Predicate.ofBool_eq_one_iff] at h0 h1
  rw [BitVec.sle_iff_toInt_le] at h0
  rw [BitVec.slt_iff_toInt_lt] at h1
  have z : (0#32 : BitVec 32).toInt = 0 := by decide
  have c : (512#32 : BitVec 32).toInt = 512 := by decide
  rw [z] at h0
  rw [c] at h1
  rw [BitVec.toInt_eq_toNat_cond] at h0 h1
  have := w.isLt
  split at h0 <;> omega

/-- What the precondition says of the arrays, read back: every adjacency entry is a real number, and every entry of the
    two index arrays is, as a signed word, at least 0 and below 512, hence as a natural number below 512. -/
theorem of_pre (x0 : FVec Ideal Cert.Loss.S256x512x512 .f32) (x1 x2 x3 x4 : IVec Cert.Loss.S256x1024 32)
    (x5 : IVec Cert.Loss.S256x1024 1)
    (h : Cert.Pre_finite_inputs.fn (F := Ideal) x0 x1 x2 x3 x4 x5 = fun _ => 1#1) :
    (∀ y, ∃ x : ℝ, x0 y = (x : EReal)) ∧ (∀ i, (x1 i).toNat < 512) ∧ (∀ i, (x2 i).toNat < 512) := by
  -- the predicate's one bit is the conjunction of five bits, each an "and" over a whole array of comparison bits
  have e := congrFun h ValueIdx.ix0
  dsimp only [Cert.Pre_finite_inputs.fn, Cert.Pre_finite_inputs.fn_part1] at e
  simp only [andi, IntOp.andi_eq_one] at e
  obtain ⟨⟨⟨⟨ef, ea0⟩, ea1⟩, eb0⟩, eb1⟩ := e
  -- a rank-0 result has one index, so each "and" that came out 1 met a 1 at every element
  haveI : Subsingleton Cert.Pre_finite_inputs.S_.Idx := ⟨fun a b => funext fun d => d.elim0⟩
  refine ⟨fun y => ?_, fun i => ?_, fun i => ?_⟩
  · exact real_of_abs_lt_top (x0 y) (Host.reduce_andi_all _ _ _ _ _ ef y)
  · exact toNat_lt_of_signed (x1 i) (Host.reduce_andi_all _ _ _ _ _ ea0 i) (Host.reduce_andi_all _ _ _ _ _ ea1 i)
  · exact toNat_lt_of_signed (x2 i) (Host.reduce_andi_all _ _ _ _ _ eb0 i) (Host.reduce_andi_all _ _ _ _ _ eb1 i)

/-- The host's clamp of an index word to `[0, 511]` (the larger of the word and 0, then the smaller of that and 511,
    both signed) leaves a word below 512 as it is. -/
theorem clamp_id (w : BitVec 32) (h : w.toNat < 512) : IntOp.minsi 511#32 (IntOp.maxsi 0#32 w) = w := by
  -- such a word is non-negative when read signed, and its signed value is its unsigned one
  have hw : w.toInt = w.toNat := by
    rw [BitVec.toInt_eq_toNat_cond]; have := w.isLt; split <;> omega
  have z : (0#32 : BitVec 32).toInt = 0 := by decide
  have c : (511#32 : BitVec 32).toInt = 511 := by decide
  -- the larger of 0 and w is w, since w is not below 0
  have hmax : IntOp.maxsi 0#32 w = w := by
    unfold IntOp.maxsi
    rw [if_neg]
    rw [BitVec.slt_iff_toInt_lt, hw, z]; omega
  rw [hmax]
  -- the smaller of 511 and w is w, since 511 is not below w
  unfold IntOp.minsi
  split
  · rename_i hc
    rw [BitVec.slt_iff_toInt_lt, hw, c] at hc
    apply BitVec.eq_of_toNat_eq
    have : (511#32 : BitVec 32).toNat = 511 := by decide
    omega
  · rfl

end Cert.PreFacts

end
-- ==== Proof.Blocks.lean ====
import proofs.«423741_j67611375173824_3_alg».proof.Proof.Gen.KernelIdeal.Frame
import proofs.«423741_j67611375173824_3_alg».proof.Proof.PreFacts
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Batch row `8·t + k`: row `k` of the eight-row block grid point `t` (of 32) stages. -/
abbrev rowAt (t : Fin cfg0.N) (k : Fin 8) : Fin 256 :=
  ⟨8 * t.val + k.val, by
    have h : t.val < 32 := lt_of_lt_of_eq t.isLt (show cfg0.N = 32 from N_0)
    have := k.isLt; omega⟩

/-- The six staged blocks at point `t`, each named at its literal type. -/
abbrev blkA (c : Dev nD) (t : Fin cfg0.N) : Vec Ideal S8x512x512 .f32 := iblk m c 0 t
abbrev blk1 (c : Dev nD) (t : Fin cfg0.N) : Vec Ideal S8x1024 .i32 := iblk m c 1 t
abbrev blk2 (c : Dev nD) (t : Fin cfg0.N) : Vec Ideal S8x1024 .i32 := iblk m c 2 t
abbrev blk3 (c : Dev nD) (t : Fin cfg0.N) : Vec Ideal S8x1024 .i32 := iblk m c 3 t
abbrev blk4 (c : Dev nD) (t : Fin cfg0.N) : Vec Ideal S8x1024 .i32 := iblk m c 4 t
abbrev blk5 (c : Dev nD) (t : Fin cfg0.N) : Vec Ideal S8x1024 .i32 := iblk m c 5 t

/-- Every input window's block index at point `t` is `t` on the batch axis and `0` on the other axes. -/
theorem index0 : ∀ t : Fin grid0.N, win0_0.index t (0 : Fin 3) = t.val ∧ win0_0.index t (1 : Fin 3) = 0
    ∧ win0_0.index t (2 : Fin 3) = 0 := by decide +kernel

/-- The adjacency block read off the array the region finds: entry `(k, a, b)` of block `t` is entry
    `(8t + k, a, b)` of the array (a block's coordinate is its index times its extent plus the coordinate inside). -/
theorem readA (c : Dev nD) (t : Fin cfg0.N) (k : Fin 8) (a b : Fin 512) :
    blkA m c t (ix3 k a b) = V m c main_arg0 (ix3 (rowAt t k) a b) := by
  unfold blkA iblk
  rw [View.read_apply]
  show V m c main_arg0 (((cfg0.win 0).blk t).view.emb (ix3 k a b)) = V m c main_arg0 (ix3 (rowAt t k) a b)
  congr 1
  funext ax
  apply Fin.ext
  match ax with
  | ⟨0, _⟩ => show win0_0.index t 0 * 8 + 1 * k.val = 8 * t.val + k.val; rw [(index0 t).1]; omega
  | ⟨1, _⟩ => show win0_0.index t 1 * 512 + 1 * a.val = a.val; rw [(index0 t).2.1]; omega
  | ⟨2, _⟩ => show win0_0.index t 2 * 512 + 1 * b.val = b.val; rw [(index0 t).2.2]; omega

/-- The adjacency block at point `t` is rows `8t … 8t + 7` of the adjacency argument. -/
theorem blkA_apply (c : Dev nD) (t : Fin cfg0.N) (k : Fin 8) (a b : Fin 512) :
    blkA m c t (ix3 k a b) = m ((c.tc : Thread nD τ).loc main_arg0) (ix3 (rowAt t k) a b) := by
  rw [readA, V_main_arg0]

/-- Window 1's block index at point `t`: `t` on the batch axis, `0` along the claims. -/
theorem index1 : ∀ t : Fin grid0.N, win0_1.index t (0 : Fin 2) = t.val ∧ win0_1.index t (1 : Fin 2) = 0 := by
  decide +kernel

/-- The row-index block read off the array the region finds: entry `(k, j)` of block `t` is entry `(8t + k, j)`. -/
theorem read1 (c : Dev nD) (t : Fin cfg0.N) (k : Fin 8) (j : Fin 1024) :
    blk1 m c t (ix2 k j) = V m c main_v0 (ix2 (rowAt t k) j) := by
  unfold blk1 iblk
  rw [View.read_apply]
  show V m c main_v0 (((cfg0.win 1).blk t).view.emb (ix2 k j)) = V m c main_v0 (ix2 (rowAt t k) j)
  congr 1
  funext ax
  apply Fin.ext
  match ax with
  | ⟨0, _⟩ => show win0_1.index t 0 * 8 + 1 * k.val = 8 * t.val + k.val; rw [(index1 t).1]; omega
  | ⟨1, _⟩ => show win0_1.index t 1 * 1024 + 1 * j.val = j.val; rw [(index1 t).2]; omega

/-- Window 2's block index at point `t`: `t` on the batch axis, `0` along the claims. -/
theorem index2 : ∀ t : Fin grid0.N, win0_2.index t (0 : Fin 2) = t.val ∧ win0_2.index t (1 : Fin 2) = 0 := by
  decide +kernel

/-- The column-index block read off the array the region finds: entry `(k, j)` of block `t` is entry `(8t + k, j)`. -/
theorem read2 (c : Dev nD) (t : Fin cfg0.N) (k : Fin 8) (j : Fin 1024) :
    blk2 m c t (ix2 k j) = V m c main_v1 (ix2 (rowAt t k) j) := by
  unfold blk2 iblk
  rw [View.read_apply]
  show V m c main_v1 (((cfg0.win 2).blk t).view.emb (ix2 k j)) = V m c main_v1 (ix2 (rowAt t k) j)
  congr 1
  funext ax
  apply Fin.ext
  match ax with
  | ⟨0, _⟩ => show win0_2.index t 0 * 8 + 1 * k.val = 8 * t.val + k.val; rw [(index2 t).1]; omega
  | ⟨1, _⟩ => show win0_2.index t 1 * 1024 + 1 * j.val = j.val; rw [(index2 t).2]; omega

/-- Window 3's block index at point `t`: `t` on the batch axis, `0` along the claims. -/
theorem index3 : ∀ t : Fin grid0.N, win0_3.index t (0 : Fin 2) = t.val ∧ win0_3.index t (1 : Fin 2) = 0 := by
  decide +kernel

/-- The relation-code block read off the array the region finds: entry `(k, j)` of block `t` is entry `(8t + k, j)`. -/
theorem read3 (c : Dev nD) (t : Fin cfg0.N) (k : Fin 8) (j : Fin 1024) :
    blk3 m c t (ix2 k j) = V m c main_arg3 (ix2 (rowAt t k) j) := by
  unfold blk3 iblk
  rw [View.read_apply]
  show V m c main_arg3 (((cfg0.win 3).blk t).view.emb (ix2 k j)) = V m c main_arg3 (ix2 (rowAt t k) j)
  congr 1
  funext ax
  apply Fin.ext
  match ax with
  | ⟨0, _⟩ => show win0_3.index t 0 * 8 + 1 * k.val = 8 * t.val + k.val; rw [(index3 t).1]; omega
  | ⟨1, _⟩ => show win0_3.index t 1 * 1024 + 1 * j.val = j.val; rw [(index3 t).2]; omega

/-- Window 4's block index at point `t`: `t` on the batch axis, `0` along the claims. -/
theorem index4 : ∀ t : Fin grid0.N, win0_4.index t (0 : Fin 2) = t.val ∧ win0_4.index t (1 : Fin 2) = 0 := by
  decide +kernel

/-- The truth-value block read off the array the region finds: entry `(k, j)` of block `t` is entry `(8t + k, j)`. -/
theorem read4 (c : Dev nD) (t : Fin cfg0.N) (k : Fin 8) (j : Fin 1024) :
    blk4 m c t (ix2 k j) = V m c main_arg4 (ix2 (rowAt t k) j) := by
  unfold blk4 iblk
  rw [View.read_apply]
  show V m c main_arg4 (((cfg0.win 4).blk t).view.emb (ix2 k j)) = V m c main_arg4 (ix2 (rowAt t k) j)
  congr 1
  funext ax
  apply Fin.ext
  match ax with
  | ⟨0, _⟩ => show win0_4.index t 0 * 8 + 1 * k.val = 8 * t.val + k.val; rw [(index4 t).1]; omega
  | ⟨1, _⟩ => show win0_4.index t 1 * 1024 + 1 * j.val = j.val; rw [(index4 t).2]; omega

/-- Window 5's block index at point `t`: `t` on the batch axis, `0` along the claims. -/
theorem index5 : ∀ t : Fin grid0.N, win0_5.index t (0 : Fin 2) = t.val ∧ win0_5.index t (1 : Fin 2) = 0 := by
  decide +kernel

/-- The mask-word block read off the array the region finds: entry `(k, j)` of block `t` is entry `(8t + k, j)`. -/
theorem read5 (c : Dev nD) (t : Fin cfg0.N) (k : Fin 8) (j : Fin 1024) :
    blk5 m c t (ix2 k j) = V m c main_v2 (ix2 (rowAt t k) j) := by
  unfold blk5 iblk
  rw [View.read_apply]
  show V m c main_v2 (((cfg0.win 5).blk t).view.emb (ix2 k j)) = V m c main_v2 (ix2 (rowAt t k) j)
  congr 1
  funext ax
  apply Fin.ext
  match ax with
  | ⟨0, _⟩ => show win0_5.index t 0 * 8 + 1 * k.val = 8 * t.val + k.val; rw [(index5 t).1]; omega
  | ⟨1, _⟩ => show win0_5.index t 1 * 1024 + 1 * j.val = j.val; rw [(index5 t).2]; omega

/-- The mask-word array as the region finds it: the host widens every mask bit to a 32-bit word. -/
theorem V_main_v2 (c : Dev nD) :
    (V m c main_v2 : IVec S256x1024 32) = extui 32 (m ((c.tc : Thread nD τ).loc main_arg5) : IVec S256x1024 1) natLt_1_32 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results

/-- The row-index array as the region finds it: the host's clamp of the argument, the signed maximum with a broadcast
    `0` and then the signed minimum with a broadcast `511`. -/
theorem V_main_v0 (c : Dev nD) :
    (V m c main_v0 : IVec S256x1024 32)
      = minsi (broadcastInDim S256x1024 ![] bcast_S_S256x1024 (constantI S_ 32 511#32))
          (maxsi (broadcastInDim S256x1024 ![] bcast_S_S256x1024 (constantI S_ 32 0#32))
            (m ((c.tc : Thread nD τ).loc main_arg1) : IVec S256x1024 32)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The clamp read at an index: the two broadcast constants read `511` and `0` everywhere. -/
theorem clamp_apply (x : IVec S256x1024 32) (i : S256x1024.Idx) :
    minsi (broadcastInDim S256x1024 ![] bcast_S_S256x1024 (constantI S_ 32 511#32))
        (maxsi (broadcastInDim S256x1024 ![] bcast_S_S256x1024 (constantI S_ 32 0#32)) x) i
      = IntOp.minsi 511#32 (IntOp.maxsi 0#32 (x i)) := rfl

/-- The column-index array as the region finds it: the host's clamp of the argument, the signed maximum with a broadcast
    `0` and then the signed minimum with a broadcast `511`. -/
theorem V_main_v1 (c : Dev nD) :
    (V m c main_v1 : IVec S256x1024 32)
      = minsi (broadcastInDim S256x1024 ![] bcast_S_S256x1024 (constantI S_ 32 511#32))
          (maxsi (broadcastInDim S256x1024 ![] bcast_S_S256x1024 (constantI S_ 32 0#32))
            (m ((c.tc : Thread nD τ).loc main_arg2) : IVec S256x1024 32)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The row-index block is rows `8t … 8t + 7` of the row-index argument: the host's clamp to `[0, 511]` before the
    region leaves an entry below 512 as it is. -/
theorem blk1_apply (c : Dev nD) (t : Fin cfg0.N) (k : Fin 8) (j : Fin 1024)
    (ha : ∀ y, (m ((c.tc : Thread nD τ).loc main_arg1) y).toNat < 512) :
    blk1 m c t (ix2 k j) = m ((c.tc : Thread nD τ).loc main_arg1) (ix2 (rowAt t k) j) := by
  rw [read1, V_main_v0, clamp_apply]
  exact Cert.PreFacts.clamp_id _ (ha _)

/-- Likewise the column-index block and the column-index argument. -/
theorem blk2_apply (c : Dev nD) (t : Fin cfg0.N) (k : Fin 8) (j : Fin 1024)
    (hb : ∀ y, (m ((c.tc : Thread nD τ).loc main_arg2) y).toNat < 512) :
    blk2 m c t (ix2 k j) = m ((c.tc : Thread nD τ).loc main_arg2) (ix2 (rowAt t k) j) := by
  rw [read2, V_main_v1, clamp_apply]
  exact Cert.PreFacts.clamp_id _ (hb _)

/-- The relation-code block and the relation-code argument. -/
theorem blk3_apply (c : Dev nD) (t : Fin cfg0.N) (k : Fin 8) (j : Fin 1024) :
    blk3 m c t (ix2 k j) = m ((c.tc : Thread nD τ).loc main_arg3) (ix2 (rowAt t k) j) := by
  rw [read3, V_main_arg3]

/-- The truth-value block and the truth-value argument. -/
theorem blk4_apply (c : Dev nD) (t : Fin cfg0.N) (k : Fin 8) (j : Fin 1024) :
    blk4 m c t (ix2 k j) = m ((c.tc : Thread nD τ).loc main_arg4) (ix2 (rowAt t k) j) := by
  rw [read4, V_main_arg4]

/-- The mask-word block is the mask argument's bits widened to 32 bits by the host before the region. -/
theorem blk5_apply (c : Dev nD) (t : Fin cfg0.N) (k : Fin 8) (j : Fin 1024) :
    blk5 m c t (ix2 k j) = (m ((c.tc : Thread nD τ).loc main_arg5) (ix2 (rowAt t k) j)).setWidth 32 := by
  rw [read5, V_main_v2]
  rfl

end Cert.KernelIdeal.Blocks

end
-- ==== Proof.PointValue.lean ====
/-
  A grid point's numerator and denominator as sums over the argument arrays.

  Grid point `16·q + i` stages batch rows `8·(16·q + i) … 8·(16·q + i) + 7` of every argument, so what its loop over
  the eight rows ends with is, from the zero word, the spec's per-claim terms of those rows' claims: for the
  numerator the weighted entropy of the gathered adjacency entry, for the denominator the weight.
-/
import proofs.«423741_j67611375173824_3_alg».proof.Proof.Cells
import proofs.«423741_j67611375173824_3_alg».proof.Proof.RowSum
import proofs.«423741_j67611375173824_3_alg».proof.Proof.Blocks
import proofs.«423741_j67611375173824_3_alg».proof.Proof.Spec

set_option maxRecDepth 16384

noncomputable section

namespace Cert.KernelIdeal.PointValue

open Idealize.ShloMosaic Idealize.ShloMosaic.TcCoe Idealize.ShloMosaic.ValueIdx Idealize.SL.Sem
open Cert.KernelIdeal Cert.KernelIdeal.Gen Cert.KernelIdeal.Points Cert.KernelIdeal.Cells Cert.KernelIdeal.Blocks
open Cert.Loss (zeroW rowOf claimOf pos term weight gathered)

variable (m : (ℓ : Loc nD τ sig) → Buf (Elt Ideal) ℓ)

/-- Equal words give the same position. -/
theorem pos_congr {w w' : BitVec 32} (h : w = w') (hw : w.toNat < 512) (hw' : w'.toNat < 512) : pos w hw = pos w' hw' := by
  subst h; rfl

/-- Claim `(b, j)`'s contribution to the numerator, over the argument arrays. -/
def fNum (c : Dev nD) (ha : ∀ y, ((m ((c.tc : Thread nD τ).loc main_arg1)) y).toNat < 512) (hb : ∀ y, ((m ((c.tc : Thread nD τ).loc main_arg2)) y).toNat < 512)
    (b : Fin 256) (j : Fin 1024) : EReal :=
  term (gathered (m ((c.tc : Thread nD τ).loc main_arg0)) (m ((c.tc : Thread nD τ).loc main_arg1)) (m ((c.tc : Thread nD τ).loc main_arg2)) ha hb b j)
    ((m ((c.tc : Thread nD τ).loc main_arg3)) (ix2 b j)) ((m ((c.tc : Thread nD τ).loc main_arg4)) (ix2 b j)) (((m ((c.tc : Thread nD τ).loc main_arg5)) (ix2 b j)).setWidth 32)

/-- Claim `(b, j)`'s contribution to the denominator. -/
def fDen (c : Dev nD) (b : Fin 256) (j : Fin 1024) : EReal := weight (((m ((c.tc : Thread nD τ).loc main_arg5)) (ix2 b j)).setWidth 32)

/-- The batch row point `16·q + i` stages as its row `k`. -/
theorem rowAt_eq (q : Fin 2) (i : Fin 16) (k : Fin 8) (h : 16 * q.val + i.val < cfg0.N) :
    rowAt ⟨16 * q.val + i.val, h⟩ k = rowOf q i k := Fin.ext rfl

theorem pNum_eq (c : Dev nD) (hfin : ∀ y, ∃ x : ℝ, (m ((c.tc : Thread nD τ).loc main_arg0)) y = (x : EReal))
    (ha : ∀ y, ((m ((c.tc : Thread nD τ).loc main_arg1)) y).toNat < 512) (hb : ∀ y, ((m ((c.tc : Thread nD τ).loc main_arg2)) y).toNat < 512)
    (q : Fin 2) (i : Fin 16) :
    pNum m c (16 * q.val + i.val)
      = zeroW + ∑ k : Fin 8, ∑ r : Fin 8, ∑ l : Fin 128, fNum m c ha hb (rowOf q i k) (claimOf r l) := by
  have hN : cfg0.N = 32 := N_0
  have hq := q.isLt
  have hi := i.isLt
  have ht : 16 * q.val + i.val < cfg0.N := by omega
  have hfin' : ∀ y, ∃ x : ℝ, blkA m c ⟨_, ht⟩ y = (x : EReal) := fun y => by
    obtain ⟨k, a, b, rfl⟩ : ∃ (k : Fin 8) (a : Fin 512) (b : Fin 512), y = ix3 k a b := ⟨y 0, y 1, y 2, eq_ix3 y⟩
    rw [blkA_apply]; exact hfin _
  have ha' : ∀ y, (blk1 m c ⟨_, ht⟩ y).toNat < 512 := fun y => by
    obtain ⟨k, j, rfl⟩ : ∃ (k : Fin 8) (j : Fin 1024), y = ix2 k j := ⟨y 0, y 1, eq_ix2 y⟩
    rw [blk1_apply m c _ _ _ ha]; exact ha _
  have hb' : ∀ y, (blk2 m c ⟨_, ht⟩ y).toNat < 512 := fun y => by
    obtain ⟨k, j, rfl⟩ : ∃ (k : Fin 8) (j : Fin 1024), y = ix2 k j := ⟨y 0, y 1, eq_ix2 y⟩
    rw [blk2_apply m c _ _ _ hb]; exact hb _
  unfold pNum
  rw [dif_pos ht]
  show (Trip.loopEnd (blkA m c ⟨_, ht⟩) (blk1 m c ⟨_, ht⟩) (blk2 m c ⟨_, ht⟩) (blk3 m c ⟨_, ht⟩) (blk4 m c ⟨_, ht⟩)
    (blk5 m c ⟨_, ht⟩)).1 o = _
  rw [RowSum.loopEnd_fst _ _ _ _ _ _ hfin' ha' hb']
  refine congrArg (zeroW + ·) (Finset.sum_congr rfl fun k _ => Finset.sum_congr rfl fun r _ => Finset.sum_congr rfl fun l _ => ?_)
  unfold fNum gathered
  rw [blkA_apply, blk3_apply, blk4_apply, blk5_apply, rowAt_eq]
  congr 2
  congr 1
  · exact pos_congr ((blk1_apply m c _ _ _ ha).trans (by rw [rowAt_eq])) _ _
  · exact pos_congr ((blk2_apply m c _ _ _ hb).trans (by rw [rowAt_eq])) _ _

theorem pDen_eq (c : Dev nD) (q : Fin 2) (i : Fin 16) :
    pDen m c (16 * q.val + i.val)
      = zeroW + ∑ k : Fin 8, ∑ r : Fin 8, ∑ l : Fin 128, fDen m c (rowOf q i k) (claimOf r l) := by
  have hN : cfg0.N = 32 := N_0
  have hq := q.isLt
  have hi := i.isLt
  have ht : 16 * q.val + i.val < cfg0.N := by omega
  unfold pDen
  rw [dif_pos ht]
  show (Trip.loopEnd (blkA m c ⟨_, ht⟩) (blk1 m c ⟨_, ht⟩) (blk2 m c ⟨_, ht⟩) (blk3 m c ⟨_, ht⟩) (blk4 m c ⟨_, ht⟩)
    (blk5 m c ⟨_, ht⟩)).2 o = _
  rw [RowSum.loopEnd_snd]
  refine congrArg (zeroW + ·) (Finset.sum_congr rfl fun k _ => Finset.sum_congr rfl fun r _ => Finset.sum_congr rfl fun l _ => ?_)
  unfold fDen
  rw [blk5_apply, rowAt_eq]

/-- The spec's numerator over the argument arrays is the sum of the per-claim numerator terms. -/
theorem numer_eq (c : Dev nD) (ha : ∀ y, ((m ((c.tc : Thread nD τ).loc main_arg1)) y).toNat < 512) (hb : ∀ y, ((m ((c.tc : Thread nD τ).loc main_arg2)) y).toNat < 512) :
    Cert.Loss.numer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) ha hb
      = ∑ b : Fin 256, ∑ j : Fin 1024, fNum m c ha hb b j := rfl

/-- The spec's denominator is the sum of the per-claim weights. -/
theorem denom_eq (c : Dev nD) :
    Cert.Loss.denom (m ((c.tc : Thread nD τ).loc main_arg5)) = ∑ b : Fin 256, ∑ j : Fin 1024, fDen m c b j := rfl

end Cert.KernelIdeal.PointValue

end
-- ==== Proof.KRun.lean ====
/-
  The kernel's run, read: its result is the quotient of the nested sums of the per-claim numerator and
  denominator terms over the argument arrays, and the arguments end unchanged.
-/
import proofs.«423741_j67611375173824_3_alg».proof.Proof.KValue
import proofs.«423741_j67611375173824_3_alg».proof.Proof.PointValue
import proofs.«423741_j67611375173824_3_alg».proof.Proof.Spec

set_option maxRecDepth 16384

noncomputable section

namespace Cert.KernelIdeal.KRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Cells Cert.KernelIdeal.KValue Cert.KernelIdeal.PointValue
open Cert.Loss (zeroW nestedSum lossOf)

variable (m : (ℓ : Loc nD τ sig) → Buf (Elt Ideal) ℓ) (ρ : Dev nD → PrngReg)

/-- The two cores' numerator cells after their last steps add up to the nested sum of the numerator terms. -/
theorem num_total (c : Dev nD) (hfin : ∀ y, ∃ x : ℝ, (m ((c.tc : Thread nD τ).loc main_arg0)) y = (x : EReal))
    (ha : ∀ y, ((m ((c.tc : Thread nD τ).loc main_arg1)) y).toNat < 512) (hb : ∀ y, ((m ((c.tc : Thread nD τ).loc main_arg2)) y).toNat < 512) :
    numAt m c (16 * (0 : Fin 2).val + 15) + numAt m c (16 * (1 : Fin 2).val + 15) = nestedSum (fNum m c ha hb) := by
  rw [numAt_last, numAt_last]
  simp only [pNum_eq m c hfin ha hb]
  rfl

/-- Likewise the denominator cells. -/
theorem den_total (c : Dev nD) :
    denAt m c (16 * (0 : Fin 2).val + 15) + denAt m c (16 * (1 : Fin 2).val + 15) = nestedSum (fDen m c) := by
  rw [denAt_last, denAt_last]
  simp only [pDen_eq m c]
  rfl

/-- What the host operations after the region return. -/
theorem result_eq (c : Dev nD) (hfin : ∀ y, ∃ x : ℝ, (m ((c.tc : Thread nD τ).loc main_arg0)) y = (x : EReal))
    (ha : ∀ y, ((m ((c.tc : Thread nD τ).loc main_arg1)) y).toNat < 512) (hb : ∀ y, ((m ((c.tc : Thread nD τ).loc main_arg2)) y).toNat < 512) :
    Pipeline.afterTail₀ cfgs (dats m) 0 (V0 m) [hostOps1, hostOps1_1] c main_v17
      = lossOf (fun _ => nestedSum (fNum m c ha hb)) (fun _ => nestedSum (fDen m c)) := by
  unfold Pipeline.afterTail₀
  rw [tail_eq _ (outArr m c) ((Pipeline.withArrays_arr spec0 launch0.win.arr_inj c _ _ 6).trans (final6 m c)),
    outArr_num, outArr_num, outArr_den, outArr_den, num_total m c hfin ha hb, den_total]

/-- THE RUN: every weakly fair execution terminates with the result at that quotient and the arguments unchanged. -/
theorem run (hfin : ∀ c : Dev nD, ∀ y, ∃ x : ℝ, (m ((c.tc : Thread nD τ).loc main_arg0)) y = (x : EReal))
    (ha : ∀ c : Dev nD, ∀ y, ((m ((c.tc : Thread nD τ).loc main_arg1)) y).toNat < 512) (hb : ∀ c : Dev nD, ∀ y, ((m ((c.tc : Thread nD τ).loc main_arg2)) y).toNat < 512) :
    θ_run defs (onTc (τ := τ) (main (F := Ideal))) ⟨m, fun _ => 0, ρ⟩ (fun r => ∀ c : Dev nD,
      r.2.mem ((c.tc : Thread nD τ).loc main_v17) = lossOf (fun _ => nestedSum (fNum m c (ha c) (hb c))) (fun _ => nestedSum (fDen m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v17 (Pipeline.mem_restRefs_of main_v17 (by decide) (by decide))).trans (result_eq m c (hfin c) (ha c) (hb c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KRun

end
-- ==== Proof.RefValue.lean ====
import proofs.«423741_j67611375173824_3_alg».proof.Proof.RefRead
import proofs.«423741_j67611375173824_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen

/-- A word below `2^31` is not negative as a signed word, so a select on "it is negative" keeps it. -/
theorem wrap_id (w k : BitVec 32) (h : w.toNat < 2 ^ 31) :
    Scalar.select (IntOp.cmpi .slt w 0#32) k w = w := by
  have h0 : (0 : Int) ≤ w.toInt := by
    rw [BitVec.toInt_eq_toNat_cond]; split <;> omega
  have : IntOp.cmpi .slt w 0#32 = 0#1 := by
    unfold IntOp.cmpi
    have hs : w.slt 0#32 = false := by
      simp only [BitVec.slt, BitVec.toInt_zero, decide_eq_false_iff_not, not_lt]; exact h0
    simp only [hs]; rfl
  rw [this]; exact select_zero _ _

/-- A concatenation of three `[256, 1024, 1]` columns along the last axis, read at `(b, j, c)`: column `c` at `(b, j, 0)`. -/
theorem concat3 {α : Type} (y0 y1 y2 : S256x1024x1.Idx → α)
    (h : Shape.Concatenates [S256x1024x1, S256x1024x1, S256x1024x1] S256x1024x3 2) (b : Fin 256) (j : Fin 1024) :
    concatenate S256x1024x3 2 [⟨S256x1024x1, y0⟩, ⟨S256x1024x1, y1⟩, ⟨S256x1024x1, y2⟩] h (ix3 b j (0 : Fin 3))
        = y0 (ix3 b j (0 : Fin 1))
      ∧ concatenate S256x1024x3 2 [⟨S256x1024x1, y0⟩, ⟨S256x1024x1, y1⟩, ⟨S256x1024x1, y2⟩] h (ix3 b j (1 : Fin 3))
        = y1 (ix3 b j (0 : Fin 1))
      ∧ concatenate S256x1024x3 2 [⟨S256x1024x1, y0⟩, ⟨S256x1024x1, y1⟩, ⟨S256x1024x1, y2⟩] h (ix3 b j (2 : Fin 3))
        = y2 (ix3 b j (0 : Fin 1)) := by
  have hi : ∀ c : Fin 3, ∀ a : Fin S256x1024x1.rank, a.cast (rfl : S256x1024x1.rank = S256x1024x3.rank) ≠ (2 : Fin 3) →
      ((ix3 b j (0 : Fin 1) : S256x1024x1.Idx) a).val = ((ix3 b j c : S256x1024x3.Idx) (a.cast rfl)).val := by
    intro c a ha
    match a with
    | ⟨0, _⟩ => rfl
    | ⟨1, _⟩ => rfl
    | ⟨2, _⟩ => exact absurd rfl ha
  refine ⟨?_, ?_, ?_⟩
  · exact concatenate_apply_piece (t := S256x1024x3) (2 : Fin 3) [⟨S256x1024x1, y0⟩, ⟨S256x1024x1, y1⟩, ⟨S256x1024x1, y2⟩] h
      (ix3 b j (0 : Fin 3)) 0 (by show 0 < 3; omega) S256x1024x1 y0 rfl rfl 0 rfl (ix3 b j (0 : Fin 1)) (hi 0) rfl
  · exact concatenate_apply_piece (t := S256x1024x3) (2 : Fin 3) [⟨S256x1024x1, y0⟩, ⟨S256x1024x1, y1⟩, ⟨S256x1024x1, y2⟩] h
      (ix3 b j (1 : Fin 3)) 1 (by show 1 < 3; omega) S256x1024x1 y1 rfl rfl 1 rfl (ix3 b j (0 : Fin 1)) (hi 1) rfl
  · exact concatenate_apply_piece (t := S256x1024x3) (2 : Fin 3) [⟨S256x1024x1, y0⟩, ⟨S256x1024x1, y1⟩, ⟨S256x1024x1, y2⟩] h
      (ix3 b j (2 : Fin 3)) 2 (by show 2 < 3; omega) S256x1024x1 y2 rfl rfl 2 rfl (ix3 b j (0 : Fin 1)) (hi 2) rfl

/-- A signed read of a word below `2^31` is its unsigned value. -/
theorem toInt_toNat (w : BitVec 32) (h : w.toNat < 2 ^ 31) : w.toInt.toNat = w.toNat := by
  rw [BitVec.toInt_eq_toNat_cond, if_pos (by omega)]; exact Int.toNat_natCast _

/-- The start-index column at `(b, j, 0)`: the batch row `b` (the wrap of a negative row does nothing below 256). -/
theorem col0 (x1 x2 : IVec S256x1024 32) (b : Fin 256) (j : Fin 1024) :
    PRead.val_main_v21 (F := Ideal) x1 x2 (ix3 b j (0 : Fin 3)) = BitVec.ofNat 32 b.val := by
  unfold PRead.val_main_v21
  refine (concat3 _ _ _ _ b j).1.trans ?_
  rw [PRead.val_main_v18_apply, PRead.val_main_v17_apply, PRead.val_main_v6_apply, PRead.val_main_v3_apply,
      PRead.val_main_v2_apply, PRead.val_main_c_apply, PRead.val_main_v1_apply, PRead.val_main_v0_apply]
  refine wrap_id _ _ ?_
  show (BitVec.ofNat 32 b.val).toNat < 2 ^ 31
  rw [BitVec.toNat_ofNat]; have := b.isLt; omega

/-- At `(b, j, 1)`: the first index word (the wrap of a negative index does nothing below 512). -/
theorem col1 (x1 x2 : IVec S256x1024 32) (b : Fin 256) (j : Fin 1024) (h : (x1 (ix2 b j)).toNat < 512) :
    PRead.val_main_v21 (F := Ideal) x1 x2 (ix3 b j (1 : Fin 3)) = x1 (ix2 b j) := by
  unfold PRead.val_main_v21
  refine (concat3 _ _ _ _ b j).2.1.trans ?_
  rw [PRead.val_main_v19_apply, PRead.val_main_v11_apply, PRead.val_main_v8_apply, PRead.val_main_v7_apply,
      PRead.val_main_c_1_apply]
  have e : PRead.idx_main_v19 (ix3 b j (0 : Fin 1)) = ix2 b j := by
    funext a; match a with | ⟨0, _⟩ => rfl | ⟨1, _⟩ => rfl
  rw [e]
  exact wrap_id _ _ (by omega)

/-- At `(b, j, 2)`: the second index word. -/
theorem col2 (x1 x2 : IVec S256x1024 32) (b : Fin 256) (j : Fin 1024) (h : (x2 (ix2 b j)).toNat < 512) :
    PRead.val_main_v21 (F := Ideal) x1 x2 (ix3 b j (2 : Fin 3)) = x2 (ix2 b j) := by
  unfold PRead.val_main_v21
  refine (concat3 _ _ _ _ b j).2.2.trans ?_
  rw [PRead.val_main_v20_apply, PRead.val_main_v16_apply, PRead.val_main_v13_apply, PRead.val_main_v12_apply,
      PRead.val_main_c_3_apply]
  have e : PRead.idx_main_v20 (ix3 b j (0 : Fin 1)) = ix2 b j := by
    funext a; match a with | ⟨0, _⟩ => rfl | ⟨1, _⟩ => rfl
  rw [e]
  exact wrap_id _ _ (by omega)

/-- THE GATHER READ AT `(b, j)`: each of the three start-index components is in range, so the clamp does nothing
    and the element read is `adj[b, var_a[b, j], var_b[b, j]]`. -/
theorem gather_apply (x0 : FVec Ideal S256x512x512 .f32) (x1 x2 : IVec S256x1024 32)
    (ha : ∀ i, (x1 i).toNat < 512) (hb : ∀ i, (x2 i).toNat < 512) (b : Fin 256) (j : Fin 1024) :
    PRead.val_main_v22 (F := Ideal) x0 x1 x2 (ix2 b j) = Cert.Loss.gathered x0 x1 x2 ha hb b j := by
  unfold PRead.val_main_v22 Host.gather Cert.Loss.gathered
  congr 1
  funext a
  refine Fin.ext ?_
  match a with
  | ⟨0, _⟩ =>
    show GatherDims.start _ (ix2 b j) _ 0 + GatherDims.batchCoord _ (ix2 b j) 0 + GatherDims.offCoord _ (ix2 b j) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S256x512x512_S256x1024x3_S256x1024_n_012_n_n_012_2_111.startIndexMap by decide)]
    have hsi : gather_S256x512x512_S256x1024x3_S256x1024_n_012_n_n_012_2_111.siIdx (ix2 b j)
        ⟨List.idxOf (0 : Fin 3) gather_S256x512x512_S256x1024x3_S256x1024_n_012_n_n_012_2_111.startIndexMap,
          List.idxOf_lt_length_iff.2 (by decide)⟩ = ix3 b j (0 : Fin 3) := by
      funext c; refine Fin.ext ?_
      match c with
      | ⟨0, _⟩ => rfl
      | ⟨1, _⟩ => rfl
      | ⟨2, _⟩ => rfl
    rw [hsi, col0]
    have hlt : (BitVec.ofNat 32 b.val).toNat = b.val := by
      rw [BitVec.toNat_ofNat]; have := b.isLt; omega
    show min (BitVec.ofNat 32 b.val).toInt.toNat (256 - 1) = b.val
    rw [toInt_toNat _ (by rw [hlt]; have := b.isLt; omega), hlt]; have := b.isLt; omega
  | ⟨1, _⟩ =>
    show GatherDims.start _ (ix2 b j) _ 1 + GatherDims.batchCoord _ (ix2 b j) 1 + GatherDims.offCoord _ (ix2 b j) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S256x512x512_S256x1024x3_S256x1024_n_012_n_n_012_2_111.startIndexMap by decide)]
    have hsi : gather_S256x512x512_S256x1024x3_S256x1024_n_012_n_n_012_2_111.siIdx (ix2 b j)
        ⟨List.idxOf (1 : Fin 3) gather_S256x512x512_S256x1024x3_S256x1024_n_012_n_n_012_2_111.startIndexMap,
          List.idxOf_lt_length_iff.2 (by decide)⟩ = ix3 b j (1 : Fin 3) := by
      funext c; refine Fin.ext ?_
      match c with
      | ⟨0, _⟩ => rfl
      | ⟨1, _⟩ => rfl
      | ⟨2, _⟩ => rfl
    rw [hsi, col1 x1 x2 b j (ha _)]
    show min (x1 (ix2 b j)).toInt.toNat (512 - 1) = (x1 (ix2 b j)).toNat
    have := ha (ix2 b j)
    rw [toInt_toNat _ (by omega)]; omega
  | ⟨2, _⟩ =>
    show GatherDims.start _ (ix2 b j) _ 2 + GatherDims.batchCoord _ (ix2 b j) 2 + GatherDims.offCoord _ (ix2 b j) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ gather_S256x512x512_S256x1024x3_S256x1024_n_012_n_n_012_2_111.startIndexMap by decide)]
    have hsi : gather_S256x512x512_S256x1024x3_S256x1024_n_012_n_n_012_2_111.siIdx (ix2 b j)
        ⟨List.idxOf (2 : Fin 3) gather_S256x512x512_S256x1024x3_S256x1024_n_012_n_n_012_2_111.startIndexMap,
          List.idxOf_lt_length_iff.2 (by decide)⟩ = ix3 b j (2 : Fin 3) := by
      funext c; refine Fin.ext ?_
      match c with
      | ⟨0, _⟩ => rfl
      | ⟨1, _⟩ => rfl
      | ⟨2, _⟩ => rfl
    rw [hsi, col2 x1 x2 b j (hb _)]
    show min (x2 (ix2 b j)).toInt.toNat (512 - 1) = (x2 (ix2 b j)).toNat
    have := hb (ix2 b j)
    rw [toInt_toNat _ (by omega)]; omega

/-- The mask: the complement of a mask bit read as an unsigned number is the weight `1 - mask` of the widened bit. -/
theorem weight_eq (m : BitVec 1) :
    FloatOps.uitofp (F := Ideal) .f32 (~~~m) = Cert.Loss.weight (m.setWidth 32) := by
  have e0 : (~~~(0#1 : BitVec 1)).toNat = 1 := by decide
  have e1 : (~~~(1#1 : BitVec 1)).toNat = 0 := by decide
  have f0 : (IntOp.subi 1#32 ((0#1 : BitVec 1).setWidth 32)).toInt = 1 := by decide
  have f1 : (IntOp.subi 1#32 ((1#1 : BitVec 1).setWidth 32)).toInt = 0 := by decide
  rcases BitVec.eq_zero_or_eq_one m with rfl | rfl
  · show (((~~~(0#1 : BitVec 1)).toNat : ℝ) : EReal) = (((IntOp.subi 1#32 ((0#1 : BitVec 1).setWidth 32)).toInt : ℝ) : EReal)
    rw [e0, f0]; simp
  · show (((~~~(1#1 : BitVec 1)).toNat : ℝ) : EReal) = (((IntOp.subi 1#32 ((1#1 : BitVec 1).setWidth 32)).toInt : ℝ) : EReal)
    rw [e1, f1]; simp

/-- THE PER-CLAIM TERM: the reference's pointwise chain from the gathered entry to the weighted entropy at `(b, j)` is
    `term` of the gathered entry, the relation code, the truth word and the widened mask bit. The host's negation is
    `0 - x`, its logarithms are the extended reals', and the broadcast constants read their words. -/
theorem term_apply (x0 : FVec Ideal S256x512x512 .f32) (x1 x2 x3 x4 : IVec S256x1024 32) (x5 : IVec S256x1024 1)
    (ha : ∀ i, (x1 i).toNat < 512) (hb : ∀ i, (x2 i).toNat < 512) (b : Fin 256) (j : Fin 1024) :
    PRead.val_main_v49 (F := Ideal) x0 x1 x2 x3 x4 x5 (ix2 b j)
      = Cert.Loss.term (Cert.Loss.gathered x0 x1 x2 ha hb b j) (x3 (ix2 b j)) (x4 (ix2 b j)) ((x5 (ix2 b j)).setWidth 32) := by
  rw [PRead.val_main_v49_apply, PRead.val_main_v44_apply, PRead.val_main_v43_apply, PRead.val_main_v37_apply,
    PRead.val_main_v42_apply, PRead.val_main_v39_apply, PRead.val_main_v38_apply, PRead.val_main_cst_11_apply,
    PRead.val_main_v41_apply, PRead.val_main_v40_apply, PRead.val_main_v36_apply, PRead.val_main_v35_apply,
    PRead.val_main_v34_apply, PRead.val_main_call2_v4_apply, PRead.val_main_call2_v3_apply, PRead.val_main_cst_10_apply,
    PRead.val_main_call2_v2_apply, PRead.val_main_call2_v1_apply, PRead.val_main_call2_v0_apply, PRead.val_main_cst_9_apply,
    PRead.val_main_v33_apply, PRead.val_main_v32_apply, PRead.val_main_v31_apply, PRead.val_main_c_7_apply,
    PRead.val_main_call1_v1_apply, PRead.val_main_call1_v0_apply, PRead.val_main_cst_8_apply,
    PRead.val_main_v30_apply, PRead.val_main_v27_apply, PRead.val_main_v24_apply, PRead.val_main_v23_apply, PRead.val_main_c_5_apply,
    PRead.val_main_v26_apply, PRead.val_main_v25_apply, PRead.val_main_c_6_apply,
    PRead.val_main_v29_apply, PRead.val_main_v28_apply, PRead.val_main_cst_apply,
    PRead.val_main_v46_apply, PRead.val_main_v45_apply, gather_apply x0 x1 x2 ha hb b j, weight_eq]
  unfold Cert.Loss.term Cert.Loss.entropy Cert.Loss.prob Cert.Loss.truth
  simp only [Ideal.hostNegf_def, Ideal.negf_def, Ideal.addf_def, Ideal.mulf_def, Ideal.subf_def, Ideal.minimumf_def,
    Ideal.maximumf_def, Ideal.hostUnary_log_def, Ideal.hostUnary_log1p_def, Ideal.ofBits_def, Ideal.ofBits_zero_f32, zero_sub]

/-- THE DENOMINATOR: the host's sum of the weights over every index, from its zero, is the double sum over rows and claims. -/
theorem denom_apply (x5 : IVec S256x1024 1) (i : S_.Idx) :
    PRead.val_main_v47 (F := Ideal) x5 i = Cert.Loss.zeroW + Cert.Loss.denom x5 := by
  rw [PRead.val_main_v47_apply, PRead.val_main_cst_12_apply,
    sum_idx2 (n0 := 256) (n1 := 1024) (PRead.val_main_v46 (F := Ideal) x5), Ideal.ofBits_def]
  unfold Cert.Loss.denom
  refine congrArg (fun s => Cert.Loss.zeroW + s) (Finset.sum_congr rfl fun b _ => Finset.sum_congr rfl fun j _ => ?_)
  rw [PRead.val_main_v46_apply, PRead.val_main_v45_apply, weight_eq]

/-- THE NUMERATOR: the host's sum of the weighted entropies over every index, from its zero, likewise. -/
theorem numer_apply (x0 : FVec Ideal S256x512x512 .f32) (x1 x2 x3 x4 : IVec S256x1024 32) (x5 : IVec S256x1024 1)
    (ha : ∀ i, (x1 i).toNat < 512) (hb : ∀ i, (x2 i).toNat < 512) (i : S_.Idx) :
    PRead.val_main_v50 (F := Ideal) x0 x1 x2 x3 x4 x5 i = Cert.Loss.zeroW + Cert.Loss.numer x0 x1 x2 x3 x4 x5 ha hb := by
  rw [PRead.val_main_v50_apply, PRead.val_main_cst_14_apply,
    sum_idx2 (n0 := 256) (n1 := 1024) (PRead.val_main_v49 (F := Ideal) x0 x1 x2 x3 x4 x5), Ideal.ofBits_def]
  unfold Cert.Loss.numer
  exact congrArg (fun s => Cert.Loss.zeroW + s) (Finset.sum_congr rfl fun b _ => Finset.sum_congr rfl fun j _ =>
    term_apply x0 x1 x2 x3 x4 x5 ha hb b j)

/-- What the reference returns, for index arrays whose entries are all below 512: the quotient of the weighted
    entropies of all claims by the number of claims that are not padding, each sum taken from the host's zero.
    With an index below 512 the wrap of a negative index does nothing and the gather's clamp does nothing, so the
    gathered entry is `adj[b, var_a[b, j], var_b[b, j]]`. -/
theorem value (x0 : FVec Ideal S256x512x512 .f32) (x1 x2 x3 x4 : IVec S256x1024 32) (x5 : IVec S256x1024 1)
    (ha : ∀ i, (x1 i).toNat < 512) (hb : ∀ i, (x2 i).toNat < 512) :
    Cert.ReferenceIdeal.PRead.val_main_v53 (F := Ideal) x0 x1 x2 x3 x4 x5
      = Cert.Loss.lossOf (fun _ => Cert.Loss.zeroW + Cert.Loss.numer x0 x1 x2 x3 x4 x5 ha hb)
          (fun _ => Cert.Loss.zeroW + Cert.Loss.denom x5) := by
  have hden : PRead.val_main_v47 (F := Ideal) x5 = fun _ => Cert.Loss.zeroW + Cert.Loss.denom x5 :=
    funext (denom_apply x5)
  have hnum : PRead.val_main_v50 (F := Ideal) x0 x1 x2 x3 x4 x5
      = fun _ => Cert.Loss.zeroW + Cert.Loss.numer x0 x1 x2 x3 x4 x5 ha hb :=
    funext (numer_apply x0 x1 x2 x3 x4 x5 ha hb)
  unfold PRead.val_main_v53 PRead.val_main_v48 PRead.val_main_v52 PRead.val_main_v51 PRead.val_main_cst_13
    PRead.val_main_cst_15 PRead.val_main_cst_16 Cert.Loss.lossOf
  rw [hden, hnum]

end Cert.ReferenceIdeal.RefValue

end
-- ==== Proof.Regroup.lean ====
import proofs.«423741_j67611375173824_3_alg».proof.Proof.Spec
import Idealize.ShloMosaic.PureOps.Ideal.Laws
import Mathlib.Logic.Equiv.Fin.Basic
import Mathlib.Data.Fintype.BigOperators
import Mathlib.Algebra.BigOperators.Fin
import Mathlib.Algebra.BigOperators.Group.Finset.Defs

noncomputable section

namespace Cert.Loss

open Idealize.ShloMosaic

/-- Two digits `a < m` and `b < n` make the number `n·a + b`, which is below `m·n`. -/
theorem digits_lt {m n : ℕ} (a : Fin m) (b : Fin n) : n * a.val + b.val < m * n :=
  calc n * a.val + b.val < n * a.val + n := Nat.add_lt_add_left b.isLt _
    _ = n * (a.val + 1) := (Nat.mul_succ n a.val).symm
    _ ≤ n * m := Nat.mul_le_mul_left _ a.isLt
    _ = m * n := Nat.mul_comm _ _

/-- A sum over the `m·n` positions of an axis is the sum over a high digit `a < m` of the sums over a low digit
    `b < n` at position `n·a + b`: every position is `n·a + b` for exactly one pair of digits. -/
theorem sum_fin_split {M : Type} [AddCommMonoid M] {N : ℕ} (m n : ℕ) (hN : m * n = N) (g : Fin N → M) :
    ∑ x : Fin N, g x = ∑ a : Fin m, ∑ b : Fin n, g ⟨n * a.val + b.val, hN ▸ digits_lt a b⟩ := by
  subst hN
  rw [← finProdFinEquiv.sum_comp, Fintype.sum_prod_type]
  refine Finset.sum_congr rfl fun a _ => Finset.sum_congr rfl fun b _ => ?_
  congr 1
  apply Fin.ext
  show b.val + n * a.val = n * a.val + b.val
  exact Nat.add_comm _ _

/-- The f32 word of all zero bits denotes the number 0. -/
theorem zeroW_eq : zeroW = 0 := Ideal.ofBits_zero_f32

/-- The kernel's order of summation adds up every claim of every batch row exactly once: a batch row is
    `8·(16·c + i) + k` for exactly one core `c`, grid step `i` and row `k` of the block, a claim is `128·r + l` for
    exactly one sublane row `r` and lane `l`, and the zeros the partial sums start from add nothing. -/
theorem nestedSum_eq (f : Fin 256 → Fin 1024 → EReal) : nestedSum f = ∑ b : Fin 256, ∑ j : Fin 1024, f b j := by
  unfold nestedSum
  simp only [zeroW_eq, zero_add]
  -- the 1024 claims of a batch row: 8 sublane rows of 128 lanes, claim 128·r + l
  have hj : ∀ b : Fin 256, ∑ j : Fin 1024, f b j = ∑ r : Fin 8, ∑ l : Fin 128, f b (claimOf r l) := fun b =>
    sum_fin_split 8 128 rfl (fun j => f b j)
  -- the 256 batch rows: 2 cores of 128 rows, each 16 grid steps of 8 rows; 128·c + (8·i + k) = 8·(16·c + i) + k
  have hb : ∀ G : Fin 256 → EReal,
      ∑ b : Fin 256, G b = ∑ c : Fin 2, ∑ i : Fin 16, ∑ k : Fin 8, G (rowOf c i k) := fun G => by
    refine (sum_fin_split 2 128 rfl G).trans (Finset.sum_congr rfl fun c _ => ?_)
    refine (sum_fin_split 16 8 rfl (fun q : Fin 128 => G ⟨128 * c.val + q.val, digits_lt c q⟩)).trans ?_
    refine Finset.sum_congr rfl fun i _ => Finset.sum_congr rfl fun k _ => ?_
    show G _ = G _
    congr 1
    apply Fin.ext
    show 128 * c.val + (8 * i.val + k.val) = 8 * (16 * c.val + i.val) + k.val
    omega
  rw [hb, Fin.sum_univ_two]
  simp only [hj]

/-- The host's sum starts from the zero word, which adds nothing. -/
theorem zeroW_add (x : EReal) : zeroW + x = x := by
  rw [zeroW_eq, zero_add]

end Cert.Loss

end
-- ==== Proof.lean ====
/-
  The certificate of the claim-validation loss kernel against its jnp reference.

  For batch row `b` and claim `j` both programs gather the adjacency entry `adj[b, var_a[b, j], var_b[b, j]]`, turn it
  into a clipped probability by the claim's relation code, take the binary cross entropy against the claim's truth
  value, weigh it by `1 - mask`, and return the sum of the weighted entropies over the sum of the weights where that
  sum is positive (`Cert.Loss`, Proof/Spec.lean).

  The reference gathers with `stablehlo.gather` after wrapping negative indices and sums the `[256, 1024]` array at
  once (Proof/RefValue.lean over the reference's run).  The kernel clamps the indices to `[0, 511]`, gathers a batch
  row's 1024 entries by a one-hot matrix product (plus a second product with the residual `adj - adj`, which is zero
  for real entries) and a masked lane sum (Proof/PayGather.lean), adds a row's terms over 128 lanes and 8 sublane
  rows (Proof/PayLoss.lean), the eight rows of a grid point in a loop (Proof/Trip.lean, Proof/RowSum.lean), a core's
  sixteen grid points into two scratch cells (Proof/Pieces.lean, Proof/Points.lean, Proof/Cells.lean), writes the
  cells to its block of a `[2, 1, 128]` array at the core's last step, and the host adds the two cores' cells and
  divides (Proof/KValue.lean, Proof/KRun.lean); the staged blocks are rows of the arguments (Proof/Blocks.lean,
  Proof/PointValue.lean).

  Under the precondition every adjacency entry is a real number and every index is in `[0, 512)`
  (Proof/PreFacts.lean): the clamp and the wrap then do nothing, the residual is zero, and the two gathers read the
  same entry.  The two orders of summation give the same extended real because addition on the extended reals is
  commutative and associative and every batch row and claim is met exactly once (Proof/Regroup.lean).

  `preserves`: the one rewrite of the idealization replaced `extf (truncf x)` by `x`, which is that rule's statement.
-/
import proofs.«423741_j67611375173824_3_alg».proof.Defs
import proofs.«423741_j67611375173824_3_alg».proof.Proof.Gen.Kernel
import proofs.«423741_j67611375173824_3_alg».proof.Proof.Gen.Kernel.Frame
import proofs.«423741_j67611375173824_3_alg».proof.Proof.Gen.KernelIdeal
import proofs.«423741_j67611375173824_3_alg».proof.Proof.Gen.KernelIdeal.Frame
import proofs.«423741_j67611375173824_3_alg».proof.Proof.Gen.ReferenceIdeal
import proofs.«423741_j67611375173824_3_alg».proof.Proof.Gen.Pre_finite_inputs
import proofs.«423741_j67611375173824_3_alg».proof.Proof.KRun
import proofs.«423741_j67611375173824_3_alg».proof.Proof.RefValue
import proofs.«423741_j67611375173824_3_alg».proof.Proof.PreFacts
import proofs.«423741_j67611375173824_3_alg».proof.Proof.Regroup
import Idealize.ShloMosaic.Adequacy
import Idealize.ShloMosaic.Init

set_option maxRecDepth 16384

noncomputable section

namespace Cert.Proof

open Idealize.ShloMosaic Idealize.SL.Sem
open Cert.Loss (lossOf nestedSum)
open Cert.KernelIdeal.PointValue (fNum fDen)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The idealization's one rewrite, `extf (truncf x) ↦ x` on the `[512, 512]` adjacency matrix. -/
theorem preserves : Cert.preserves_Kernel_KernelIdeal :=
  IdealRules.truncf_extf.statement Cert.KernelIdeal.S512x512 .f32 .bf16

/-- Both programs return the spec's quotient: the kernel with its numerator and denominator added up in its own
    nested order, the reference with each added up at once from the host's zero; the two orders agree. -/
theorem algebraic : Cert.algebraic_KernelIdeal_ReferenceIdeal := by
  intro m ρ m' ρ' hpre hagree
  have hp := fun c => Cert.PreFacts.of_pre _ _ _ _ _ _ (hpre c)
  refine ⟨fun c => lossOf (fun _ => nestedSum (fNum m c (hp c).2.1 (hp c).2.2)) (fun _ => nestedSum (fDen m c)),
    Cert.KernelIdeal.KRun.run m ρ (fun c => (hp c).1) (fun c => (hp c).2.1) (fun c => (hp c).2.2), ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v53_eq, (hagree c).1, (hagree c).2.1, (hagree c).2.2.1, (hagree c).2.2.2.1,
    (hagree c).2.2.2.2.1, (hagree c).2.2.2.2.2,
    Cert.ReferenceIdeal.RefValue.value _ _ _ _ _ _ (hp c).2.1 (hp c).2.2]
  show _ = lossOf (fun _ => nestedSum (fNum m c (hp c).2.1 (hp c).2.2)) (fun _ => nestedSum (fDen m c))
  rw [Cert.Loss.nestedSum_eq, Cert.Loss.nestedSum_eq, Cert.Loss.zeroW_add, Cert.Loss.zeroW_add,
    Cert.KernelIdeal.PointValue.numer_eq m c (hp c).2.1 (hp c).2.2, Cert.KernelIdeal.PointValue.denom_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
